-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x7x7x30 : Shape := ⟨4, ![65536, 7, 7, 30]⟩
abbrev S_ : Shape := ⟨0, ![]⟩

class Facts : Prop where
  bcast_S_S65536x7x7x30 : S_.BroadcastsInDim S65536x7x7x30 (![] : Fin 0 → Fin S65536x7x7x30.rank)
  reducesTo_S65536x7x7x30_S_d0_1_2_3 : S65536x7x7x30.ReducesTo [0, 1, 2, 3] S_
  h_S_ : 0 < S_.numel

variable [Facts]

def fn {F : FTy → Type} [FloatOps F] (main_arg0 : FVec F S65536x7x7x30 .f32) (main_arg1 : FVec F S65536x7x7x30 .f32) : IVec S_ 1 :=
  let main_v0 : FVec F S65536x7x7x30 .f32 := Host.absf main_arg0
  let main_cst : FVec F S_ .f32 := constant S_ .f32 0x7F800000#32
  let main_v1 : FVec F S65536x7x7x30 .f32 := broadcastInDim S65536x7x7x30 ![] bcast_S_S65536x7x7x30 main_cst
  let main_v2 : IVec S65536x7x7x30 1 := cmpf .olt main_v0 main_v1
  let main_c : IVec S_ 1 := constantI S_ 1 1#1
  let main_v3 : IVec S_ 1 := (fun x v => Host.reduce IntOp.andi x v reducesTo_S65536x7x7x30_S_d0_1_2_3 h_S_) main_v2 main_c
  let main_v4 : FVec F S65536x7x7x30 .f32 := Host.absf main_arg1
  let main_cst_0 : FVec F S_ .f32 := constant S_ .f32 0x7F800000#32
  let main_v5 : FVec F S65536x7x7x30 .f32 := broadcastInDim S65536x7x7x30 ![] bcast_S_S65536x7x7x30 main_cst_0
  let main_v6 : IVec S65536x7x7x30 1 := cmpf .olt main_v4 main_v5
  let main_c_1 : IVec S_ 1 := constantI S_ 1 1#1
  let main_v7 : IVec S_ 1 := (fun x v => Host.reduce IntOp.andi x v reducesTo_S65536x7x7x30_S_d0_1_2_3 h_S_) main_v6 main_c_1
  let main_v8 : IVec S_ 1 := andi main_v3 main_v7
  main_v8
-- ==== Kernel.lean ====
abbrev S65536x7x7x30 : Shape := ⟨4, ![65536, 7, 7, 30]⟩
abbrev S3211264x30 : Shape := ⟨2, ![3211264, 30]⟩
abbrev S2x1x1 : Shape := ⟨3, ![2, 1, 1]⟩
abbrev S4096x30 : Shape := ⟨2, ![4096, 30]⟩
abbrev S1x1x1 : Shape := ⟨3, ![1, 1, 1]⟩
abbrev S1x1 : Shape := ⟨2, ![1, 1]⟩
abbrev S4096x4 : Shape := ⟨2, ![4096, 4]⟩
abbrev S4096x1 : Shape := ⟨2, ![4096, 1]⟩
abbrev S4096 : Shape := ⟨1, ![4096]⟩
abbrev S1 : Shape := ⟨1, ![1]⟩
abbrev S4096x20 : Shape := ⟨2, ![4096, 20]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S65536x7x7x30, .f32⟩
  | .hbm, ⟨1, _⟩ => ⟨S65536x7x7x30, .f32⟩
  | .hbm, ⟨2, _⟩ => ⟨S3211264x30, .f32⟩
  | .hbm, ⟨3, _⟩ => ⟨S3211264x30, .f32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S4096x30, .f32⟩
  | .local _ .vmem, ⟨1, _⟩ => ⟨S4096x30, .f32⟩
  | .local _ .vmem, ⟨2, _⟩ => ⟨S4096x30, .f32⟩
  | .local _ .vmem, ⟨3, _⟩ => ⟨S4096x30, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S65536x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 392], ![false, false]⟩

def k0_cond2 (i : grid0.Coords) : BitVec 1 :=
  let arg1 : BitVec 32 := BitVec.ofNat 32 (i 1).val
  let c391_i32 : BitVec 32 := 391#32
  let v198 : BitVec 1 := Scalar.cmpi .eq arg1 c391_i32
  let v199 : BitVec 32 := Scalar.extui v198
  let c0_i32_42 : BitVec 32 := 0#32
  let v200 : BitVec 1 := Scalar.cmpi .ne v199 c0_i32_42
  v200

def cc0_transform_0 (i : grid0.Coords) : Fin 2 → Nat :=
  let arg0 : BitVec 32 := BitVec.ofNat 32 (i 0).val
  let arg1 : BitVec 32 := BitVec.ofNat 32 (i 1).val
  let c392_i32 : BitVec 32 := 392#32
  let v0 : BitVec 32 := Scalar.muli arg0 c392_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c392_i32 : BitVec 32 := 392#32
  let v0 : BitVec 32 := Scalar.muli arg0 c392_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x7x7x30_S3211264x30 : S65536x7x7x30.ShapeCasts S3211264x30
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S4096x30_S4096x30_0_0 : ∀ a, (![0, 0] : Fin 2 → Nat) a + S4096x30.size a ≤ S4096x30.size a
  h_S4096x30 : 0 < S4096x30.numel
  shapeCasts_S4096x30_S4096x30 : S4096x30.ShapeCasts S4096x30
  slices_S4096x30_o0_21_S4096x4 : S4096x30.Slices ![0, 21] S4096x4
  slices_S4096x30_o0_26_S4096x4 : S4096x30.Slices ![0, 26] S4096x4
  slices_S4096x4_o0_0_S4096x1 : S4096x4.Slices ![0, 0] S4096x1
  slices_S4096x4_o0_2_S4096x1 : S4096x4.Slices ![0, 2] S4096x1
  slices_S4096x4_o0_1_S4096x1 : S4096x4.Slices ![0, 1] S4096x1
  slices_S4096x4_o0_3_S4096x1 : S4096x4.Slices ![0, 3] S4096x1
  natLt_1_32 : 1 < 32
  slices_S4096x30_o0_20_S4096x1 : S4096x30.Slices ![0, 20] S4096x1
  slices_S4096x30_o0_29_S4096x1 : S4096x30.Slices ![0, 29] S4096x1
  reduces_S4096x1_S4096 : S4096x1.Reduces [1] S4096
  shapeCasts_S4096_S4096x1 : S4096.ShapeCasts S4096x1
  reduces_S4096x1_S1 : S4096x1.Reduces [0] S1
  shapeCasts_S1_S1x1 : S1.ShapeCasts S1x1
  slices_S4096x30_o0_0_S4096x20 : S4096x30.Slices ![0, 0] S4096x20
  broadcasts_S4096x1_S4096x20 : S4096x1.Broadcasts S4096x20
  reduces_S4096x20_S4096 : S4096x20.Reduces [1] S4096
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x30.size a ≤ S3211264x30.size a
  hwx0_0 : ∀ i : grid0.Coords, EltTy.bits .f32 = 32 ∨ (Rect.block (s := S3211264x30) S4096x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x30.size a ≤ S3211264x30.size a
  hwx0_1 : ∀ i : grid0.Coords, EltTy.bits .f32 = 32 ∨ (Rect.block (s := S3211264x30) S4096x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S4096x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x7x7x30 : Shape := ⟨4, ![65536, 7, 7, 30]⟩
abbrev S65536x7x7x4 : Shape := ⟨4, ![65536, 7, 7, 4]⟩
abbrev S65536x7x7x1 : Shape := ⟨4, ![65536, 7, 7, 1]⟩
abbrev S_ : Shape := ⟨0, ![]⟩
abbrev S65536x7x7x20 : Shape := ⟨4, ![65536, 7, 7, 20]⟩

abbrev nBuf : Space → Nat
  | .hbm => 216
  | .vmem => 0
  | .smem => 0
  | _ => 0

abbrev hbmTy0_0 (i : Nat) : BufTy := match i % 128 with
  | 0 => ⟨S65536x7x7x30, .f32⟩
  | 1 => ⟨S65536x7x7x30, .f32⟩
  | 2 => ⟨S65536x7x7x4, .f32⟩
  | 3 => ⟨S65536x7x7x4, .f32⟩
  | 4 => ⟨S65536x7x7x1, .f32⟩
  | 5 => ⟨S65536x7x7x1, .f32⟩
  | 6 => ⟨S_, .f32⟩
  | 7 => ⟨S65536x7x7x1, .f32⟩
  | 8 => ⟨S65536x7x7x1, .f32⟩
  | 9 => ⟨S65536x7x7x1, .f32⟩
  | 10 => ⟨S65536x7x7x1, .f32⟩
  | 11 => ⟨S65536x7x7x1, .f32⟩
  | 12 => ⟨S_, .f32⟩
  | 13 => ⟨S65536x7x7x1, .f32⟩
  | 14 => ⟨S65536x7x7x1, .f32⟩
  | 15 => ⟨S65536x7x7x1, .f32⟩
  | 16 => ⟨S65536x7x7x1, .f32⟩
  | 17 => ⟨S65536x7x7x1, .f32⟩
  | 18 => ⟨S_, .f32⟩
  | 19 => ⟨S65536x7x7x1, .f32⟩
  | 20 => ⟨S65536x7x7x1, .f32⟩
  | 21 => ⟨S65536x7x7x1, .f32⟩
  | 22 => ⟨S65536x7x7x1, .f32⟩
  | 23 => ⟨S65536x7x7x1, .f32⟩
  | 24 => ⟨S_, .f32⟩
  | 25 => ⟨S65536x7x7x1, .f32⟩
  | 26 => ⟨S65536x7x7x1, .f32⟩
  | 27 => ⟨S65536x7x7x1, .f32⟩
  | 28 => ⟨S65536x7x7x1, .f32⟩
  | 29 => ⟨S65536x7x7x1, .f32⟩
  | 30 => ⟨S_, .f32⟩
  | 31 => ⟨S65536x7x7x1, .f32⟩
  | 32 => ⟨S65536x7x7x1, .f32⟩
  | 33 => ⟨S65536x7x7x1, .f32⟩
  | 34 => ⟨S65536x7x7x1, .f32⟩
  | 35 => ⟨S65536x7x7x1, .f32⟩
  | 36 => ⟨S_, .f32⟩
  | 37 => ⟨S65536x7x7x1, .f32⟩
  | 38 => ⟨S65536x7x7x1, .f32⟩
  | 39 => ⟨S65536x7x7x1, .f32⟩
  | 40 => ⟨S65536x7x7x1, .f32⟩
  | 41 => ⟨S65536x7x7x1, .f32⟩
  | 42 => ⟨S_, .f32⟩
  | 43 => ⟨S65536x7x7x1, .f32⟩
  | 44 => ⟨S65536x7x7x1, .f32⟩
  | 45 => ⟨S65536x7x7x1, .f32⟩
  | 46 => ⟨S65536x7x7x1, .f32⟩
  | 47 => ⟨S65536x7x7x1, .f32⟩
  | 48 => ⟨S_, .f32⟩
  | 49 => ⟨S65536x7x7x1, .f32⟩
  | 50 => ⟨S65536x7x7x1, .f32⟩
  | 51 => ⟨S65536x7x7x1, .f32⟩
  | 52 => ⟨S65536x7x7x1, .f32⟩
  | 53 => ⟨S65536x7x7x1, .f32⟩
  | 54 => ⟨S65536x7x7x1, .f32⟩
  | 55 => ⟨S65536x7x7x1, .f32⟩
  | 56 => ⟨S65536x7x7x1, .f32⟩
  | 57 => ⟨S_, .i32⟩
  | 58 => ⟨S_, .f32⟩
  | 59 => ⟨S65536x7x7x1, .f32⟩
  | 60 => ⟨S65536x7x7x1, .f32⟩
  | 61 => ⟨S65536x7x7x1, .f32⟩
  | 62 => ⟨S_, .i32⟩
  | 63 => ⟨S_, .f32⟩
  | 64 => ⟨S65536x7x7x1, .f32⟩
  | 65 => ⟨S65536x7x7x1, .f32⟩
  | 66 => ⟨S65536x7x7x1, .f32⟩
  | 67 => ⟨S65536x7x7x1, .f32⟩
  | 68 => ⟨S65536x7x7x1, .f32⟩
  | 69 => ⟨S65536x7x7x1, .f32⟩
  | 70 => ⟨S65536x7x7x1, .f32⟩
  | 71 => ⟨S65536x7x7x1, .f32⟩
  | 72 => ⟨S65536x7x7x1, .f32⟩
  | 73 => ⟨S65536x7x7x1, .f32⟩
  | 74 => ⟨S65536x7x7x1, .f32⟩
  | 75 => ⟨S65536x7x7x1, .f32⟩
  | 76 => ⟨S65536x7x7x1, .f32⟩
  | 77 => ⟨S_, .f32⟩
  | 78 => ⟨S65536x7x7x1, .f32⟩
  | 79 => ⟨S65536x7x7x1, .f32⟩
  | 80 => ⟨S65536x7x7x1, .f32⟩
  | 81 => ⟨S65536x7x7x4, .f32⟩
  | 82 => ⟨S65536x7x7x4, .f32⟩
  | 83 => ⟨S65536x7x7x1, .f32⟩
  | 84 => ⟨S65536x7x7x1, .f32⟩
  | 85 => ⟨S_, .f32⟩
  | 86 => ⟨S65536x7x7x1, .f32⟩
  | 87 => ⟨S65536x7x7x1, .f32⟩
  | 88 => ⟨S65536x7x7x1, .f32⟩
  | 89 => ⟨S65536x7x7x1, .f32⟩
  | 90 => ⟨S65536x7x7x1, .f32⟩
  | 91 => ⟨S_, .f32⟩
  | 92 => ⟨S65536x7x7x1, .f32⟩
  | 93 => ⟨S65536x7x7x1, .f32⟩
  | 94 => ⟨S65536x7x7x1, .f32⟩
  | 95 => ⟨S65536x7x7x1, .f32⟩
  | 96 => ⟨S65536x7x7x1, .f32⟩
  | 97 => ⟨S_, .f32⟩
  | 98 => ⟨S65536x7x7x1, .f32⟩
  | 99 => ⟨S65536x7x7x1, .f32⟩
  | 100 => ⟨S65536x7x7x1, .f32⟩
  | 101 => ⟨S65536x7x7x1, .f32⟩
  | 102 => ⟨S65536x7x7x1, .f32⟩
  | 103 => ⟨S_, .f32⟩
  | 104 => ⟨S65536x7x7x1, .f32⟩
  | 105 => ⟨S65536x7x7x1, .f32⟩
  | 106 => ⟨S65536x7x7x1, .f32⟩
  | 107 => ⟨S65536x7x7x1, .f32⟩
  | 108 => ⟨S65536x7x7x1, .f32⟩
  | 109 => ⟨S_, .f32⟩
  | 110 => ⟨S65536x7x7x1, .f32⟩
  | 111 => ⟨S65536x7x7x1, .f32⟩
  | 112 => ⟨S65536x7x7x1, .f32⟩
  | 113 => ⟨S65536x7x7x1, .f32⟩
  | 114 => ⟨S65536x7x7x1, .f32⟩
  | 115 => ⟨S_, .f32⟩
  | 116 => ⟨S65536x7x7x1, .f32⟩
  | 117 => ⟨S65536x7x7x1, .f32⟩
  | 118 => ⟨S65536x7x7x1, .f32⟩
  | 119 => ⟨S65536x7x7x1, .f32⟩
  | 120 => ⟨S65536x7x7x1, .f32⟩
  | 121 => ⟨S_, .f32⟩
  | 122 => ⟨S65536x7x7x1, .f32⟩
  | 123 => ⟨S65536x7x7x1, .f32⟩
  | 124 => ⟨S65536x7x7x1, .f32⟩
  | 125 => ⟨S65536x7x7x1, .f32⟩
  | 126 => ⟨S65536x7x7x1, .f32⟩
  | 127 => ⟨S_, .f32⟩
  | _ => ⟨S65536x7x7x30, .f32⟩

abbrev hbmTy0_1 (i : Nat) : BufTy := match i % 128 with
  | 0 => ⟨S65536x7x7x1, .f32⟩
  | 1 => ⟨S65536x7x7x1, .f32⟩
  | 2 => ⟨S65536x7x7x1, .f32⟩
  | 3 => ⟨S65536x7x7x1, .f32⟩
  | 4 => ⟨S65536x7x7x1, .f32⟩
  | 5 => ⟨S65536x7x7x1, .f32⟩
  | 6 => ⟨S65536x7x7x1, .f32⟩
  | 7 => ⟨S65536x7x7x1, .f32⟩
  | 8 => ⟨S_, .i32⟩
  | 9 => ⟨S_, .f32⟩
  | 10 => ⟨S65536x7x7x1, .f32⟩
  | 11 => ⟨S65536x7x7x1, .f32⟩
  | 12 => ⟨S65536x7x7x1, .f32⟩
  | 13 => ⟨S_, .i32⟩
  | 14 => ⟨S_, .f32⟩
  | 15 => ⟨S65536x7x7x1, .f32⟩
  | 16 => ⟨S65536x7x7x1, .f32⟩
  | 17 => ⟨S65536x7x7x1, .f32⟩
  | 18 => ⟨S65536x7x7x1, .f32⟩
  | 19 => ⟨S65536x7x7x1, .f32⟩
  | 20 => ⟨S65536x7x7x1, .f32⟩
  | 21 => ⟨S65536x7x7x1, .f32⟩
  | 22 => ⟨S65536x7x7x1, .f32⟩
  | 23 => ⟨S65536x7x7x1, .f32⟩
  | 24 => ⟨S65536x7x7x1, .f32⟩
  | 25 => ⟨S65536x7x7x1, .f32⟩
  | 26 => ⟨S65536x7x7x1, .f32⟩
  | 27 => ⟨S65536x7x7x1, .f32⟩
  | 28 => ⟨S_, .f32⟩
  | 29 => ⟨S65536x7x7x1, .f32⟩
  | 30 => ⟨S65536x7x7x1, .f32⟩
  | 31 => ⟨S65536x7x7x1, .f32⟩
  | 32 => ⟨S65536x7x7x1, .i1⟩
  | 33 => ⟨S65536x7x7x1, .f32⟩
  | 34 => ⟨S65536x7x7x1, .f32⟩
  | 35 => ⟨S_, .f32⟩
  | 36 => ⟨S65536x7x7x1, .f32⟩
  | 37 => ⟨S65536x7x7x1, .f32⟩
  | 38 => ⟨S65536x7x7x1, .f32⟩
  | 39 => ⟨S65536x7x7x1, .f32⟩
  | 40 => ⟨S65536x7x7x1, .f32⟩
  | 41 => ⟨S65536x7x7x1, .f32⟩
  | 42 => ⟨S65536x7x7x1, .f32⟩
  | 43 => ⟨S65536x7x7x1, .f32⟩
  | 44 => ⟨S65536x7x7x1, .f32⟩
  | 45 => ⟨S65536x7x7x1, .f32⟩
  | 46 => ⟨S65536x7x7x1, .f32⟩
  | 47 => ⟨S65536x7x7x1, .f32⟩
  | 48 => ⟨S_, .f32⟩
  | 49 => ⟨S_, .f32⟩
  | 50 => ⟨S_, .f32⟩
  | 51 => ⟨S65536x7x7x1, .f32⟩
  | 52 => ⟨S65536x7x7x1, .f32⟩
  | 53 => ⟨S65536x7x7x1, .f32⟩
  | 54 => ⟨S65536x7x7x1, .f32⟩
  | 55 => ⟨S65536x7x7x1, .f32⟩
  | 56 => ⟨S65536x7x7x1, .f32⟩
  | 57 => ⟨S65536x7x7x1, .f32⟩
  | 58 => ⟨S65536x7x7x1, .f32⟩
  | 59 => ⟨S_, .f32⟩
  | 60 => ⟨S_, .f32⟩
  | 61 => ⟨S65536x7x7x1, .f32⟩
  | 62 => ⟨S65536x7x7x1, .f32⟩
  | 63 => ⟨S65536x7x7x1, .f32⟩
  | 64 => ⟨S65536x7x7x1, .f32⟩
  | 65 => ⟨S65536x7x7x1, .f32⟩
  | 66 => ⟨S65536x7x7x1, .f32⟩
  | 67 => ⟨S_, .f32⟩
  | 68 => ⟨S_, .f32⟩
  | 69 => ⟨S_, .f32⟩
  | 70 => ⟨S65536x7x7x20, .f32⟩
  | 71 => ⟨S65536x7x7x20, .f32⟩
  | 72 => ⟨S65536x7x7x20, .f32⟩
  | 73 => ⟨S65536x7x7x20, .f32⟩
  | 74 => ⟨S65536x7x7x20, .f32⟩
  | 75 => ⟨S65536x7x7x20, .f32⟩
  | 76 => ⟨S65536x7x7x20, .f32⟩
  | 77 => ⟨S65536x7x7x20, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S65536x7x7x30, .f32⟩

abbrev hbmTy (i : Nat) : BufTy := match i / 128 with
  | 0 => hbmTy0_0 i
  | 1 => hbmTy0_1 i
  | _ => ⟨S65536x7x7x30, .f32⟩

abbrev bufTy : (tb : Table) → Fin (tcTables nBuf tb) → BufTy
  | .hbm, ⟨i, _⟩ => hbmTy i
  | _, _ => ⟨S65536x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_call1_v0 : Ref sig .tc := ⟨.hbm, 63, rfl⟩
abbrev main_call1_v1 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_15 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_17 : Ref sig .tc := ⟨.hbm, 136, rfl⟩
abbrev main_call2_v0 : Ref sig .tc := ⟨.hbm, 137, rfl⟩
abbrev main_call2_v1 : Ref sig .tc := ⟨.hbm, 138, rfl⟩
abbrev main_v111 : Ref sig .tc := ⟨.hbm, 139, rfl⟩
abbrev main_v112 : Ref sig .tc := ⟨.hbm, 140, rfl⟩
abbrev main_c_18 : Ref sig .tc := ⟨.hbm, 141, rfl⟩
abbrev main_call3_v0 : Ref sig .tc := ⟨.hbm, 142, rfl⟩
abbrev main_call3_v1 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_21 : Ref sig .tc := ⟨.hbm, 176, rfl⟩
abbrev main_v143 : Ref sig .tc := ⟨.hbm, 177, rfl⟩
abbrev main_cst_22 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_23 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_24 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_25 : Ref sig .tc := ⟨.hbm, 206, rfl⟩
abbrev main_v169 : Ref sig .tc := ⟨.hbm, 207, rfl⟩
abbrev main_cst_26 : Ref sig .tc := ⟨.hbm, 208, rfl⟩
abbrev main_cst_27 : Ref sig .tc := ⟨.hbm, 209, rfl⟩
abbrev main_v170 : Ref sig .tc := ⟨.hbm, 210, rfl⟩
abbrev main_v171 : Ref sig .tc := ⟨.hbm, 211, rfl⟩
abbrev main_cst_28 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩

abbrev nD : Nat := 1
abbrev τ : Topo := Topo.v7x

variable {F : FTy → Type} [FloatOps F]

class Facts₀ : Prop where
  slices_S65536x7x7x30_S65536x7x7x4_0_0_0_21 : S65536x7x7x30.Slices ![0, 0, 0, 21] S65536x7x7x4
  slices_S65536x7x7x4_S65536x7x7x1_0_0_0_0 : S65536x7x7x4.Slices ![0, 0, 0, 0] S65536x7x7x1
  slices_S65536x7x7x4_S65536x7x7x1_0_0_0_2 : S65536x7x7x4.Slices ![0, 0, 0, 2] S65536x7x7x1
  bcast_S_S65536x7x7x1 : S_.BroadcastsInDim S65536x7x7x1 (![] : Fin 0 → Fin S65536x7x7x1.rank)
  slices_S65536x7x7x4_S65536x7x7x1_0_0_0_1 : S65536x7x7x4.Slices ![0, 0, 0, 1] S65536x7x7x1
  slices_S65536x7x7x4_S65536x7x7x1_0_0_0_3 : S65536x7x7x4.Slices ![0, 0, 0, 3] S65536x7x7x1
  slices_S65536x7x7x30_S65536x7x7x4_0_0_0_26 : S65536x7x7x30.Slices ![0, 0, 0, 26] S65536x7x7x4
  slices_S65536x7x7x30_S65536x7x7x1_0_0_0_20 : S65536x7x7x30.Slices ![0, 0, 0, 20] S65536x7x7x1
  slices_S65536x7x7x30_S65536x7x7x1_0_0_0_29 : S65536x7x7x30.Slices ![0, 0, 0, 29] S65536x7x7x1
  reducesTo_S65536x7x7x1_S_d0_1_2_3 : S65536x7x7x1.ReducesTo [0, 1, 2, 3] S_
  h_S_ : 0 < S_.numel
  slices_S65536x7x7x30_S65536x7x7x20_0_0_0_0 : S65536x7x7x30.Slices ![0, 0, 0, 0] S65536x7x7x20
  bcast_S65536x7x7x1_S65536x7x7x20_0_1_2_3 : S65536x7x7x1.BroadcastsInDim S65536x7x7x20 (![0, 1, 2, 3] : Fin 4 → Fin S65536x7x7x20.rank)
  reducesTo_S65536x7x7x20_S_d0_1_2_3 : S65536x7x7x20.ReducesTo [0, 1, 2, 3] S_

variable [Facts₀]

class Facts : Prop extends Facts₀ where

variable [Facts]
-- ==== Proof.KernelStep.lean ====
/-
  The kernel body's arithmetic at one grid point, as ONE function of what it loads: the two input blocks
  (4096 cells of thirty values each) and the running total it finds in its accumulator. It is the value of the
  body's one store into the accumulator: the accumulator's previous contents plus the block's loss.
-/
import proofs.«111956_j13443247636702_2_alg».proof.Proof.Gen.KernelIdeal.Skeleton

noncomputable section

namespace Cert.KernelIdeal.Step

open Idealize.ShloMosaic Cert.KernelIdeal Cert.KernelIdeal.Gen

variable {F : FTy → Type} [FloatOps F]

/-- Per row of the block: the overlap ratio of the first predicted box with the target box. -/
def iouFirstVec (x0 x1 : Vec F S4096x30 .f32) : FVec F S4096x1 .f32 :=
  k0_pay17 (k0_pay8 x1) (k0_pay9 x0) (k0_pay10 x0) (k0_pay11 x0) (k0_pay12 x0) (k0_pay13 x1) (k0_pay14 x1)
    (k0_pay15 x1) (k0_pay16 x1)

/-- Per row: (1 − best) · the first confidence, where best is the indicator that the second box overlaps more. -/
def keepFirstVec (x0 x1 : Vec F S4096x30 .f32) : FVec F S4096x1 .f32 :=
  k0_pay28 (k0_pay4 x0) (k0_pay8 x1) (iouFirstVec x0 x1) (k0_pay18 (k0_pay7 x0)) (k0_pay19 (k0_pay7 x0))
    (k0_pay20 (k0_pay7 x0)) (k0_pay21 (k0_pay7 x0)) (k0_pay22 (k0_pay8 x1)) (k0_pay23 (k0_pay8 x1))

/-- Per row: best · the second confidence. -/
def takeSecondVec (x0 x1 : Vec F S4096x30 .f32) : FVec F S4096x1 .f32 :=
  k0_pay29 (k0_pay4 x0) (k0_pay8 x1) (iouFirstVec x0 x1) (k0_pay18 (k0_pay7 x0)) (k0_pay19 (k0_pay7 x0))
    (k0_pay20 (k0_pay7 x0)) (k0_pay21 (k0_pay7 x0)) (k0_pay22 (k0_pay8 x1)) (k0_pay23 (k0_pay8 x1))

/-- The accumulator after the body, from the two blocks and the accumulator before it. -/
def bodyStep (x0 x1 : Vec F S4096x30 .f32) (acc : Vec F S1x1x1 .f32) : FVec F S1x1x1 .f32 :=
  k0_pay1 (k0_pay30 (k0_pay4 x0) (k0_pay5 x1) (k0_pay25 (k0_pay5 x1)) (k0_pay26 (k0_pay4 x0)) (k0_pay27 (k0_pay4 x0))
    (keepFirstVec x0 x1) (takeSecondVec x0 x1) acc)

end Cert.KernelIdeal.Step

end
-- ==== Proof.RowLoss.lean ====
/-
  The detection loss, cell by cell, over the extended reals.

  A cell is thirty predicted values `P` and thirty target values `T`: twenty class scores (channels 0–19), the
  target's objectness (channel 20), and two predicted boxes in midpoint format — centre, width, height — at
  channels 21–24 and 26–29 with confidences at channels 20 and 29; the target's one box sits at channels 21–24.

  For a cell, the box whose overlap ratio with the target box is strictly larger is the responsible one
  (`best`, an indicator 0 or 1). The loss is a sum over all cells of four squared differences:
  the objectness term, two no-object terms (one per predicted confidence) weighted by one half, and the class term.
  `total` is that sum over any finite family of cells; the laws below say that it may be computed block by block,
  in any grouping of the cells — which needs only that addition of extended reals is commutative and associative
  and that multiplication by the non-negative real one half distributes over sums.
-/
import Idealize.ShloMosaic.PureOps.Ideal
import Idealize.ShloMosaic.Lib.ValueIdx

noncomputable section

namespace Cert.RowLoss

open Idealize.ShloMosaic Idealize.ShloMosaic.ValueIdx

/-! ## The literals both programs share, as the extended reals their patterns denote -/

abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev five : EReal := Ideal.ofBits .f32 0x40A00000#32
abbrev eps : EReal := Ideal.ofBits .f32 0x358637BD#32

/-! ## One cell -/

/-- The lower and the upper edge of a box along one axis, from its centre `c` and its extent `w`. -/
def lo (c w : EReal) : EReal := c - w * half
def hi (c w : EReal) : EReal := c + w * half

/-- The absolute value as both programs compute it. -/
def absE (x : EReal) : EReal := max x (-x)

/-- The area of the intersection of two midpoint-format boxes: the overlaps along the two axes, each clipped at
    zero, multiplied. -/
def inter (ax ay aw ah bx by' bw bh : EReal) : EReal :=
  max (min (hi ax aw) (hi bx bw) - max (lo ax aw) (lo bx bw)) zero
    * max (min (hi ay ah) (hi by' bh) - max (lo ay ah) (lo by' bh)) zero

/-- The area of one box. -/
def area (x y w h : EReal) : EReal := absE ((hi x w - lo x w) * (hi y h - lo y h))

/-- Intersection over union, with the stabilising `eps` in the denominator. -/
def iou (ax ay aw ah bx by' bw bh : EReal) : EReal :=
  Ideal.div (inter ax ay aw ah bx by' bw bh)
    (area ax ay aw ah + area bx by' bw bh - inter ax ay aw ah bx by' bw bh + eps)

variable (P T : Fin 30 → EReal)

/-- The overlap ratio of the first and of the second predicted box with the target box. -/
def iouFirst : EReal := iou (P 21) (P 22) (P 23) (P 24) (T 21) (T 22) (T 23) (T 24)
def iouSecond : EReal := iou (P 26) (P 27) (P 28) (P 29) (T 21) (T 22) (T 23) (T 24)

/-- 1 when the second box overlaps the target strictly more than the first, else 0. -/
def best : EReal := (((Ideal.cmp .ogt (iouSecond P T) (iouFirst P T)).toNat : ℝ) : EReal)

/-- The objectness difference: the responsible box's confidence against the target's objectness, both masked by it. -/
def objDiff : EReal := T 20 * ((one - best P T) * P 20 + best P T * P 29) - T 20 * T 20

/-- A no-object difference, for the confidence at channel `ch` (20 or 29), masked by one minus the objectness. -/
def noobjDiff (ch : Fin 30) : EReal := (one - T 20) * P ch - (one - T 20) * T 20

/-- A class-score difference, masked by the objectness. -/
def clsDiff (l : Fin 20) : EReal :=
  T 20 * P ⟨l.val, Nat.lt_of_lt_of_le l.isLt (by decide)⟩ - T 20 * T ⟨l.val, Nat.lt_of_lt_of_le l.isLt (by decide)⟩

def cellObj : EReal := objDiff P T * objDiff P T
def cellNoFirst : EReal := noobjDiff P T 20 * noobjDiff P T 20
def cellNoSecond : EReal := noobjDiff P T 29 * noobjDiff P T 29
def cellCls (l : Fin 20) : EReal := clsDiff P T l * clsDiff P T l

/-! ## A family of cells -/

/-- The loss of a finite family of cells, from its four per-cell terms (the class term already summed over the
    twenty classes): objectness + ½ · (no-object, first + no-object, second) + classes. -/
def total {ι : Type} [Fintype ι] (o n1 n2 cl : ι → EReal) : EReal :=
  (∑ i, o i + half * (∑ i, n1 i + ∑ i, n2 i)) + ∑ i, cl i

/-- Row `q` of a two-dimensional array of cells' values, as a cell's thirty values. -/
def row {n : Nat} (x : (⟨2, ![n, 30]⟩ : Shape).Idx → EReal) (q : Fin n) : Fin 30 → EReal := fun ch => x (ix2 q ch)

/-- The cell at position `(j 0, j 1, j 2)` of a four-dimensional array whose last axis holds the thirty values,
    whatever the last coordinate of `j` ranges over. -/
def cell4 {a b c k : Nat} (x : (⟨4, ![a, b, c, 30]⟩ : Shape).Idx → EReal) (j : (⟨4, ![a, b, c, k]⟩ : Shape).Idx) :
    Fin 30 → EReal := fun ch => x (ix4 (j 0) (j 1) (j 2) ch)

/-- The loss of the `n` cells that are the rows of two arrays. -/
def rowsTotal {n : Nat} (x0 x1 : (⟨2, ![n, 30]⟩ : Shape).Idx → EReal) : EReal :=
  total (fun q : Fin n => cellObj (row x0 q) (row x1 q)) (fun q => cellNoFirst (row x0 q) (row x1 q))
    (fun q => cellNoSecond (row x0 q) (row x1 q)) (fun q => ∑ l : Fin 20, cellCls (row x0 q) (row x1 q) l)

end Cert.RowLoss

end
-- ==== Proof.KernelCells.lean ====
/-
  The kernel body's arithmetic over the extended reals, cell by cell.

  The body cuts columns out of its two blocks of 4096 cells — thirty predicted values and thirty target values per
  cell —, computes from them, row by row, the edges of the two predicted boxes and of the target box, the two overlap
  ratios, the indicator of the box that overlaps the target more, and four squared differences; it sums each of the
  four down the rows (the class term over its twenty lanes first), weights the two no-object sums by one half, and
  adds the result to what the accumulator held. Read at a row `q`, every one of these values is the corresponding
  term of `Cert.RowLoss` at the cell whose predicted values are row `q` of the first block and whose target values
  are row `q` of the second: the operations are pointwise, a slice reads a shifted column, a cast keeps the
  row-major position, and a sum over one axis from a zero accumulator is the finite sum over that axis. So the value
  stored is the accumulator's previous value plus `rowsTotal` of the two blocks.
-/
import proofs.«111956_j13443247636702_2_alg».proof.Proof.KernelStep
import proofs.«111956_j13443247636702_2_alg».proof.Proof.RowLoss
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cells

open Idealize.ShloMosaic Idealize.ShloMosaic.ValueIdx Cert.KernelIdeal Cert.KernelIdeal.Gen Cert.RowLoss

/-! ## Layout operations of the body, read at an index -/

section Layout
variable {α : Type}

/-- A slice of columns `o … o + k − 1` of an `n × m` array reads, at `(q, c)`, the array at `(q, o + c)`. -/
theorem slice_cols {n m k o : Nat} (x : (⟨2, ![n, m]⟩ : Shape).Idx → α)
    (h : (⟨2, ![n, m]⟩ : Shape).Slices ![0, o] ⟨2, ![n, k]⟩) (q : Fin n) (c : Fin k) (hc : o + c.val < m) :
    extractStridedSlice ⟨2, ![n, k]⟩ ![0, o] x h (ix2 q c) = x (ix2 q ⟨o + c.val, hc⟩) := by
  refine extractStridedSlice_apply _ _ _ _ _ ?_
  intro a
  match a with
  | ⟨0, _⟩ => show q.val = 0 + q.val; omega
  | ⟨1, _⟩ => rfl

/-- A vector of `n` entries viewed as an `n × 1` column reads, at `(q, u)`, the vector at `q`. -/
theorem cast_col {n : Nat} (x : (⟨1, ![n]⟩ : Shape).Idx → α) (h : (⟨1, ![n]⟩ : Shape).ShapeCasts ⟨2, ![n, 1]⟩)
    (q : Fin n) (u : Fin 1) : shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    omega)

/-- A one-entry vector viewed as a `1 × 1` array reads that entry. -/
theorem cast_11 (x : (⟨1, ![1]⟩ : Shape).Idx → α) (h : (⟨1, ![1]⟩ : Shape).ShapeCasts ⟨2, ![1, 1]⟩)
    (j : (⟨2, ![1, 1]⟩ : Shape).Idx) : shapeCast ⟨2, ![1, 1]⟩ x h j = x (ix1 0) :=
  shapeCast_apply x h _ _ (by
    have h0 := (j 0).isLt
    have h1 := (j 1).isLt
    rw [Shape.rowMajor_val_two, Shape.rowMajor_val_one]
    show (0 : Nat) = (j 0).val * 1 + (j 1).val
    change (j 0).val < 1 at h0
    change (j 1).val < 1 at h1
    omega)

/-- A `1 × 1 × 1` array viewed as a `1 × 1` array reads its one entry. -/
theorem cast_111_11 (x : (⟨3, ![1, 1, 1]⟩ : Shape).Idx → α) (h : (⟨3, ![1, 1, 1]⟩ : Shape).ShapeCasts ⟨2, ![1, 1]⟩)
    (j : (⟨2, ![1, 1]⟩ : Shape).Idx) : shapeCast ⟨2, ![1, 1]⟩ x h j = x (ix3 0 0 0) :=
  shapeCast_apply x h _ _ (by
    have h0 := (j 0).isLt
    have h1 := (j 1).isLt
    rw [Shape.rowMajor_val_two, Shape.rowMajor_val_three]
    show ((0 : Nat) * 1 + 0) * 1 + 0 = (j 0).val * 1 + (j 1).val
    change (j 0).val < 1 at h0
    change (j 1).val < 1 at h1
    omega)

/-- A `1 × 1` array viewed as a `1 × 1 × 1` array reads its one entry. -/
theorem cast_11_111 (x : (⟨2, ![1, 1]⟩ : Shape).Idx → α) (h : (⟨2, ![1, 1]⟩ : Shape).ShapeCasts ⟨3, ![1, 1, 1]⟩)
    (j : (⟨3, ![1, 1, 1]⟩ : Shape).Idx) : shapeCast ⟨3, ![1, 1, 1]⟩ x h j = x (ix2 0 0) :=
  shapeCast_apply x h _ _ (by
    have h0 := (j 0).isLt
    have h1 := (j 1).isLt
    have h2 := (j 2).isLt
    rw [Shape.rowMajor_val_two, Shape.rowMajor_val_three]
    show (0 : Nat) * 1 + 0 = ((j 0).val * 1 + (j 1).val) * 1 + (j 2).val
    change (j 0).val < 1 at h0
    change (j 1).val < 1 at h1
    change (j 2).val < 1 at h2
    omega)

/-- An `n × 1` column repeated along `k` lanes reads, at `(q, l)`, the column at `(q, 0)`. -/
theorem bcast_col {n k : Nat} (x : (⟨2, ![n, 1]⟩ : Shape).Idx → α)
    (h : (⟨2, ![n, 1]⟩ : Shape).Broadcasts ⟨2, ![n, k]⟩) (hn : n ≠ 1) (q : Fin n) (l : Fin k) :
    broadcastTo ⟨2, ![n, k]⟩ x h (ix2 q l) = x (ix2 q 0) := by
  refine broadcastTo_apply _ _ _ _ ?_
  intro a
  match a with
  | ⟨0, _⟩ => exact (if_neg hn).symm
  | ⟨1, _⟩ => rfl

end Layout

/-! ## The body's two-step sums -/

/-- The lane sum of an `n × m` array of extended reals: at row `q`, the sum of the row. -/
theorem lanes_sum {n m : Nat} (v : FVec Ideal ⟨2, ![n, m]⟩ .f32) (acc : BitVec 32)
    (h : (⟨2, ![n, m]⟩ : Shape).Reduces [1] ⟨1, ![n]⟩) (hφ : FKind.Formats .f32) (hacc : acc = FKind.add.neutral .f32 hφ)
    (q : Fin n) :
    multiReduction (F := Ideal) .add [1] ⟨1, ![n]⟩ v acc h hφ hacc (ix1 q) = ∑ k : Fin m, v (ix2 q k) := by
  rw [Ideal.multiReduction_add_single]
  show ∑ k : Fin m, v (h.lift (ix1 q) k) = _
  refine Finset.sum_congr rfl fun k _ => congrArg v ?_
  funext a
  match a with
  | ⟨0, _⟩ => rfl
  | ⟨1, _⟩ => rfl

/-- The sum down an `n × 1` column. -/
theorem rows_sum {n : Nat} (v : FVec Ideal ⟨2, ![n, 1]⟩ .f32) (acc : BitVec 32)
    (h : (⟨2, ![n, 1]⟩ : Shape).Reduces [0] ⟨1, ![1]⟩) (hφ : FKind.Formats .f32) (hacc : acc = FKind.add.neutral .f32 hφ) :
    multiReduction (F := Ideal) .add [0] ⟨1, ![1]⟩ v acc h hφ hacc (ix1 0) = ∑ q : Fin n, v (ix2 q 0) := by
  rw [Ideal.multiReduction_add_single]
  show ∑ q : Fin n, v (h.lift (ix1 0) q) = _
  refine Finset.sum_congr rfl fun q _ => congrArg v ?_
  funext a
  match a with
  | ⟨0, _⟩ => rfl
  | ⟨1, _⟩ => rfl

/-! ## The columns the body cuts out of its two blocks -/

/-- The body's first cast leaves a block as it is. -/
theorem pay4_eq (x : Vec Ideal S4096x30 .f32) : k0_pay4 (F := Ideal) x = x := by
  unfold k0_pay4
  exact shapeCast_self x _

theorem pay5_eq (x : Vec Ideal S4096x30 .f32) : k0_pay5 (F := Ideal) x = x := by
  unfold k0_pay5
  exact shapeCast_self x _

/-- Columns 21–24 of the predictions: the first predicted box. -/
theorem pay6_at (x : Vec Ideal S4096x30 .f32) (q : Fin 4096) (c : Fin 4) :
    k0_pay6 (F := Ideal) x (ix2 q c) = x (ix2 q ⟨21 + c.val, by omega⟩) := by
  unfold k0_pay6
  rw [pay4_eq]
  exact slice_cols (o := 21) x _ q c _

/-- Columns 26–29 of the predictions: the second predicted box. -/
theorem pay7_at (x : Vec Ideal S4096x30 .f32) (q : Fin 4096) (c : Fin 4) :
    k0_pay7 (F := Ideal) x (ix2 q c) = x (ix2 q ⟨26 + c.val, by omega⟩) := by
  unfold k0_pay7
  rw [pay4_eq]
  exact slice_cols (o := 26) x _ q c _

/-- Columns 21–24 of the targets: the target box. -/
theorem pay8_at (x : Vec Ideal S4096x30 .f32) (q : Fin 4096) (c : Fin 4) :
    k0_pay8 (F := Ideal) x (ix2 q c) = x (ix2 q ⟨21 + c.val, by omega⟩) := by
  unfold k0_pay8
  rw [pay5_eq]
  exact slice_cols (o := 21) x _ q c _

/-- One column `o` of a four-column piece. -/
theorem col4 (y : FVec Ideal S4096x4 .f32) (o : Nat) (h : S4096x4.Slices ![0, o] S4096x1) (ho : o < 4) (q : Fin 4096) :
    extractStridedSlice S4096x1 ![0, o] y h (ix2 q 0) = y (ix2 q ⟨o, ho⟩) :=
  slice_cols (o := o) y h q 0 (by simpa using ho)

/-- The lower edge along one axis, computed from two columns of a four-column piece. -/
theorem lo_at (y : FVec Ideal S4096x4 .f32) (a b : Nat) (ha : S4096x4.Slices ![0, a] S4096x1)
    (hb : S4096x4.Slices ![0, b] S4096x1) (ha4 : a < 4) (hb4 : b < 4) (q : Fin 4096) :
    subf (extractStridedSlice S4096x1 ![0, a] y ha)
      (mulf (extractStridedSlice S4096x1 ![0, b] y hb) (broadcast S4096x1 (Scalar.ofBits (F := Ideal) .f32 0x3F000000#32))) (ix2 q 0)
      = lo (y (ix2 q ⟨a, ha4⟩)) (y (ix2 q ⟨b, hb4⟩)) := by
  show extractStridedSlice S4096x1 ![0, a] y ha (ix2 q 0) - extractStridedSlice S4096x1 ![0, b] y hb (ix2 q 0) * half = _
  rw [col4 y a ha ha4, col4 y b hb hb4]
  rfl

/-- The upper edge likewise. -/
theorem hi_at (y : FVec Ideal S4096x4 .f32) (a b : Nat) (ha : S4096x4.Slices ![0, a] S4096x1)
    (hb : S4096x4.Slices ![0, b] S4096x1) (ha4 : a < 4) (hb4 : b < 4) (q : Fin 4096) :
    addf (extractStridedSlice S4096x1 ![0, a] y ha)
      (mulf (extractStridedSlice S4096x1 ![0, b] y hb) (broadcast S4096x1 (Scalar.ofBits (F := Ideal) .f32 0x3F000000#32))) (ix2 q 0)
      = hi (y (ix2 q ⟨a, ha4⟩)) (y (ix2 q ⟨b, hb4⟩)) := by
  show extractStridedSlice S4096x1 ![0, a] y ha (ix2 q 0) + extractStridedSlice S4096x1 ![0, b] y hb (ix2 q 0) * half = _
  rw [col4 y a ha ha4, col4 y b hb hb4]
  rfl

/-! ## The box edges, row by row -/

section Edges
variable (x : Vec Ideal S4096x30 .f32) (q : Fin 4096)

theorem pay9_at : k0_pay9 (F := Ideal) x (ix2 q 0) = lo (row x q 21) (row x q 23) := by
  unfold k0_pay9
  refine (lo_at (k0_pay6 x) 0 2 _ _ (by decide) (by decide) q).trans ?_
  rw [pay6_at, pay6_at]
  rfl

theorem pay10_at : k0_pay10 (F := Ideal) x (ix2 q 0) = lo (row x q 22) (row x q 24) := by
  unfold k0_pay10
  refine (lo_at (k0_pay6 x) 1 3 _ _ (by decide) (by decide) q).trans ?_
  rw [pay6_at, pay6_at]
  rfl

theorem pay11_at : k0_pay11 (F := Ideal) x (ix2 q 0) = hi (row x q 21) (row x q 23) := by
  unfold k0_pay11
  refine (hi_at (k0_pay6 x) 0 2 _ _ (by decide) (by decide) q).trans ?_
  rw [pay6_at, pay6_at]
  rfl

theorem pay12_at : k0_pay12 (F := Ideal) x (ix2 q 0) = hi (row x q 22) (row x q 24) := by
  unfold k0_pay12
  refine (hi_at (k0_pay6 x) 1 3 _ _ (by decide) (by decide) q).trans ?_
  rw [pay6_at, pay6_at]
  rfl

theorem pay13_at : k0_pay13 (F := Ideal) x (ix2 q 0) = lo (row x q 21) (row x q 23) := by
  unfold k0_pay13
  refine (lo_at (k0_pay8 x) 0 2 _ _ (by decide) (by decide) q).trans ?_
  rw [pay8_at, pay8_at]
  rfl

theorem pay14_at : k0_pay14 (F := Ideal) x (ix2 q 0) = lo (row x q 22) (row x q 24) := by
  unfold k0_pay14
  refine (lo_at (k0_pay8 x) 1 3 _ _ (by decide) (by decide) q).trans ?_
  rw [pay8_at, pay8_at]
  rfl

theorem pay15_at : k0_pay15 (F := Ideal) x (ix2 q 0) = row x q 21 := by
  unfold k0_pay15
  refine (col4 (k0_pay8 x) 0 _ (by decide) q).trans ?_
  rw [pay8_at]
  rfl

theorem pay16_at : k0_pay16 (F := Ideal) x (ix2 q 0) = row x q 23 * half := by
  unfold k0_pay16
  show extractStridedSlice S4096x1 ![0, 2] (k0_pay8 x) _ (ix2 q 0) * half = _
  rw [col4 (k0_pay8 x) 2 _ (by decide) q, pay8_at]
  rfl

end Edges

/-- The absolute value at an index. -/
theorem absf_at {s : Shape} {φ : FTy} (a : FVec Ideal s φ) (i : s.Idx) : absf a i = absE (a i) := rfl

/-! ## The overlap ratio of the first predicted box with the target box -/

section Iou
variable (x0 x1 : Vec Ideal S4096x30 .f32) (q : Fin 4096)

theorem iouFirst_at : Step.iouFirstVec (F := Ideal) x0 x1 (ix2 q 0) = iouFirst (row x0 q) (row x1 q) := by
  unfold Step.iouFirstVec k0_pay17
  simp only [divf_apply, addf_apply, subf_apply, mulf_apply, maximumf_apply, minimumf_apply, broadcast_apply, absf_at,
    pay9_at, pay10_at, pay11_at, pay12_at, pay13_at, pay14_at, pay15_at, pay16_at,
    col4 (k0_pay8 x1) 1 _ (by decide) q, col4 (k0_pay8 x1) 3 _ (by decide) q, pay8_at]
  rfl

/-! ## The second predicted box's edges, and the indicator of the responsible box -/

theorem pay18_at : k0_pay18 (F := Ideal) (k0_pay7 x0) (ix2 q 0) = lo (row x0 q 26) (row x0 q 28) := by
  unfold k0_pay18
  refine (lo_at (k0_pay7 x0) 0 2 _ _ (by decide) (by decide) q).trans ?_
  rw [pay7_at, pay7_at]
  rfl

theorem pay19_at : k0_pay19 (F := Ideal) (k0_pay7 x0) (ix2 q 0) = lo (row x0 q 27) (row x0 q 29) := by
  unfold k0_pay19
  refine (lo_at (k0_pay7 x0) 1 3 _ _ (by decide) (by decide) q).trans ?_
  rw [pay7_at, pay7_at]
  rfl

theorem pay20_at : k0_pay20 (F := Ideal) (k0_pay7 x0) (ix2 q 0) = hi (row x0 q 26) (row x0 q 28) := by
  unfold k0_pay20
  refine (hi_at (k0_pay7 x0) 0 2 _ _ (by decide) (by decide) q).trans ?_
  rw [pay7_at, pay7_at]
  rfl

theorem pay21_at : k0_pay21 (F := Ideal) (k0_pay7 x0) (ix2 q 0) = hi (row x0 q 27) (row x0 q 29) := by
  unfold k0_pay21
  refine (hi_at (k0_pay7 x0) 1 3 _ _ (by decide) (by decide) q).trans ?_
  rw [pay7_at, pay7_at]
  rfl

theorem pay22_at : k0_pay22 (F := Ideal) (k0_pay8 x1) (ix2 q 0) = row x1 q 21 := by
  unfold k0_pay22
  refine (col4 (k0_pay8 x1) 0 _ (by decide) q).trans ?_
  rw [pay8_at]
  rfl

theorem pay23_at : k0_pay23 (F := Ideal) (k0_pay8 x1) (ix2 q 0) = row x1 q 23 := by
  unfold k0_pay23
  refine (col4 (k0_pay8 x1) 2 _ (by decide) q).trans ?_
  rw [pay8_at]
  rfl

/-- A one-bit word widened to 32 bits and read as a signed integer is the bit. -/
theorem bit_toInt (b : BitVec 1) : (((b.setWidth 32).toInt : ℝ) : EReal) = ((b.toNat : ℝ) : EReal) := by
  have h : (b.setWidth 32).toInt = (b.toNat : ℤ) := by
    rcases BitVec.eq_zero_or_eq_one b with rfl | rfl <;> decide
  rw [h, Int.cast_natCast]

/-- The indicator the body computes: 1 where the second box overlaps the target strictly more. -/
theorem best_at :
    k0_pay24 (F := Ideal) (k0_pay8 x1) (Step.iouFirstVec x0 x1) (k0_pay18 (k0_pay7 x0)) (k0_pay19 (k0_pay7 x0))
      (k0_pay20 (k0_pay7 x0)) (k0_pay21 (k0_pay7 x0)) (k0_pay22 (k0_pay8 x1)) (k0_pay23 (k0_pay8 x1)) (ix2 q 0)
      = best (row x0 q) (row x1 q) := by
  unfold k0_pay24
  simp only [sitofp_apply, extui_apply, cmpf_apply, divf_apply, addf_apply, subf_apply, mulf_apply, maximumf_apply,
    minimumf_apply, broadcast_apply, absf_at, iouFirst_at, pay18_at, pay19_at, pay20_at, pay21_at, pay22_at, pay23_at,
    col4 (k0_pay8 x1) 0 _ (by decide) q, col4 (k0_pay8 x1) 1 _ (by decide) q, col4 (k0_pay8 x1) 2 _ (by decide) q,
    col4 (k0_pay8 x1) 3 _ (by decide) q, pay8_at]
  exact bit_toInt _

end Iou

/-! ## Objectness, the two confidences, and the responsible box's share of each -/

section Conf
variable (x0 x1 : Vec Ideal S4096x30 .f32) (q : Fin 4096)

/-- One column `o` of a thirty-column block. -/
theorem col30 (y : FVec Ideal S4096x30 .f32) (o : Nat) (h : S4096x30.Slices ![0, o] S4096x1) (ho : o < 30) (q : Fin 4096) :
    extractStridedSlice S4096x1 ![0, o] y h (ix2 q 0) = y (ix2 q ⟨o, ho⟩) :=
  slice_cols (o := o) y h q 0 (by simpa using ho)

/-- The target's objectness. -/
theorem pay25_at : k0_pay25 (F := Ideal) x1 (ix2 q 0) = row x1 q 20 := by
  unfold k0_pay25
  exact col30 x1 20 _ (by decide) q

/-- The first predicted confidence. -/
theorem pay26_at : k0_pay26 (F := Ideal) x0 (ix2 q 0) = row x0 q 20 := by
  unfold k0_pay26
  exact col30 x0 20 _ (by decide) q

/-- The second predicted confidence. -/
theorem pay27_at : k0_pay27 (F := Ideal) x0 (ix2 q 0) = row x0 q 29 := by
  unfold k0_pay27
  exact col30 x0 29 _ (by decide) q

theorem keepFirst_at :
    Step.keepFirstVec (F := Ideal) x0 x1 (ix2 q 0) = (one - best (row x0 q) (row x1 q)) * row x0 q 20 := by
  unfold Step.keepFirstVec k0_pay28
  simp only [mulf_apply, subf_apply, broadcast_apply, best_at, pay4_eq, pay26_at]
  rfl

theorem takeSecond_at :
    Step.takeSecondVec (F := Ideal) x0 x1 (ix2 q 0) = best (row x0 q) (row x1 q) * row x0 q 29 := by
  unfold Step.takeSecondVec k0_pay29
  simp only [mulf_apply, best_at, pay4_eq, pay27_at]

end Conf

/-! ## The block's loss -/

/-- A lane sum, viewed as a column, summed down the column and viewed as a `1 × 1` array: the sum of all entries,
    rows outside, lanes inside. -/
theorem two_step_sum {n m : Nat} (v : FVec Ideal ⟨2, ![n, m]⟩ .f32) (a1 a2 : BitVec 32)
    (h1 : (⟨2, ![n, m]⟩ : Shape).Reduces [1] ⟨1, ![n]⟩) (hφ1 : FKind.Formats .f32) (hacc1 : a1 = FKind.add.neutral .f32 hφ1)
    (h2 : (⟨1, ![n]⟩ : Shape).ShapeCasts ⟨2, ![n, 1]⟩)
    (h3 : (⟨2, ![n, 1]⟩ : Shape).Reduces [0] ⟨1, ![1]⟩) (hφ3 : FKind.Formats .f32) (hacc3 : a2 = FKind.add.neutral .f32 hφ3)
    (h4 : (⟨1, ![1]⟩ : Shape).ShapeCasts ⟨2, ![1, 1]⟩) (j : (⟨2, ![1, 1]⟩ : Shape).Idx) :
    shapeCast ⟨2, ![1, 1]⟩
        (multiReduction (F := Ideal) .add [0] ⟨1, ![1]⟩
          (shapeCast ⟨2, ![n, 1]⟩ (multiReduction (F := Ideal) .add [1] ⟨1, ![n]⟩ v a1 h1 hφ1 hacc1) h2) a2 h3 hφ3 hacc3)
        h4 j
      = ∑ q : Fin n, ∑ l : Fin m, v (ix2 q l) := by
  rw [cast_11, rows_sum]
  refine Finset.sum_congr rfl fun q _ => ?_
  rw [cast_col, lanes_sum]

/-- The same for a single lane. -/
theorem two_step_sum_col {n : Nat} (v : FVec Ideal ⟨2, ![n, 1]⟩ .f32) (a1 a2 : BitVec 32)
    (h1 : (⟨2, ![n, 1]⟩ : Shape).Reduces [1] ⟨1, ![n]⟩) (hφ1 : FKind.Formats .f32) (hacc1 : a1 = FKind.add.neutral .f32 hφ1)
    (h2 : (⟨1, ![n]⟩ : Shape).ShapeCasts ⟨2, ![n, 1]⟩)
    (h3 : (⟨2, ![n, 1]⟩ : Shape).Reduces [0] ⟨1, ![1]⟩) (hφ3 : FKind.Formats .f32) (hacc3 : a2 = FKind.add.neutral .f32 hφ3)
    (h4 : (⟨1, ![1]⟩ : Shape).ShapeCasts ⟨2, ![1, 1]⟩) (j : (⟨2, ![1, 1]⟩ : Shape).Idx) :
    shapeCast ⟨2, ![1, 1]⟩
        (multiReduction (F := Ideal) .add [0] ⟨1, ![1]⟩
          (shapeCast ⟨2, ![n, 1]⟩ (multiReduction (F := Ideal) .add [1] ⟨1, ![n]⟩ v a1 h1 hφ1 hacc1) h2) a2 h3 hφ3 hacc3)
        h4 j
      = ∑ q : Fin n, v (ix2 q 0) := by
  rw [two_step_sum]
  exact Finset.sum_congr rfl fun q _ => Fin.sum_univ_one _

/-- The first twenty columns of a thirty-column block: the class scores. -/
theorem first_cols (y : FVec Ideal S4096x30 .f32) (h : S4096x30.Slices ![0, 0] S4096x20) (q : Fin 4096) (l : Fin 20) :
    extractStridedSlice S4096x20 ![0, 0] y h (ix2 q l)
      = y (ix2 q ⟨l.val, Nat.lt_of_lt_of_le l.isLt (by decide)⟩) := by
  refine (slice_cols (o := 0) y h q l (by omega)).trans (congrArg y ?_)
  exact congrArg (ix2 q) (Fin.ext (Nat.zero_add _))

/-- The objectness column repeated along the twenty class lanes. -/
theorem bcast20 (y : FVec Ideal S4096x1 .f32) (h : S4096x1.Broadcasts S4096x20) (q : Fin 4096) (l : Fin 20) :
    broadcastTo S4096x20 y h (ix2 q l) = y (ix2 q 0) :=
  bcast_col y h (by decide) q l

/-- The body's last payload, from the columns it is given: the accumulator's previous value plus the four sums of
    squared differences, the two no-object sums weighted by one half. -/
theorem pay30_at (v4 v6 : FVec Ideal S4096x30 .f32) (t c1 c2 k1 k2 : FVec Ideal S4096x1 .f32) (acc : Vec Ideal S1x1x1 .f32)
    (j : S1x1.Idx) :
    k0_pay30 (F := Ideal) v4 v6 t c1 c2 k1 k2 acc j
      = acc (ix3 0 0 0)
        + ((∑ q : Fin 4096,
              (t (ix2 q 0) * (k1 (ix2 q 0) + k2 (ix2 q 0)) - t (ix2 q 0) * t (ix2 q 0))
                * (t (ix2 q 0) * (k1 (ix2 q 0) + k2 (ix2 q 0)) - t (ix2 q 0) * t (ix2 q 0))
            + half * (∑ q : Fin 4096,
                  ((one - t (ix2 q 0)) * c1 (ix2 q 0) - (one - t (ix2 q 0)) * t (ix2 q 0))
                    * ((one - t (ix2 q 0)) * c1 (ix2 q 0) - (one - t (ix2 q 0)) * t (ix2 q 0))
                + ∑ q : Fin 4096,
                  ((one - t (ix2 q 0)) * c2 (ix2 q 0) - (one - t (ix2 q 0)) * t (ix2 q 0))
                    * ((one - t (ix2 q 0)) * c2 (ix2 q 0) - (one - t (ix2 q 0)) * t (ix2 q 0))))
          + ∑ q : Fin 4096, ∑ l : Fin 20,
              (t (ix2 q 0) * v4 (ix2 q ⟨l.val, Nat.lt_of_lt_of_le l.isLt (by decide)⟩)
                  - t (ix2 q 0) * v6 (ix2 q ⟨l.val, Nat.lt_of_lt_of_le l.isLt (by decide)⟩))
                * (t (ix2 q 0) * v4 (ix2 q ⟨l.val, Nat.lt_of_lt_of_le l.isLt (by decide)⟩)
                  - t (ix2 q 0) * v6 (ix2 q ⟨l.val, Nat.lt_of_lt_of_le l.isLt (by decide)⟩))) := by
  unfold k0_pay30
  simp only [addf_apply, mulf_apply, broadcast_apply, cast_111_11]
  refine congrArg (acc (ix3 0 0 0) + ·) ?_
  refine congrArg₂ (· + ·) (congrArg₂ (· + ·) ?_ (congrArg (half * ·) (congrArg₂ (· + ·) ?_ ?_))) ?_
  · exact two_step_sum_col _ _ _ _ _ _ _ _ _ _ _ _
  · exact two_step_sum_col _ _ _ _ _ _ _ _ _ _ _ _
  · exact two_step_sum_col _ _ _ _ _ _ _ _ _ _ _ _
  · refine (two_step_sum _ _ _ _ _ _ _ _ _ _ _ _).trans ?_
    refine Finset.sum_congr rfl fun q _ => Finset.sum_congr rfl fun l _ => ?_
    simp only [mulf_apply, subf_apply, bcast20, first_cols]

/-! ## The body's store -/

/-- The body's one store into the accumulator holds the accumulator's previous value plus the loss of the block's
    4096 cells. -/
theorem bodyStep_ideal (x0 x1 : Vec Ideal S4096x30 .f32) (acc : Vec Ideal S1x1x1 .f32) :
    Cert.KernelIdeal.Step.bodyStep (F := Ideal) x0 x1 acc = fun _ => acc (ix3 0 0 0) + rowsTotal (n := 4096) x0 x1 := by
  funext j
  unfold Step.bodyStep k0_pay1
  refine (cast_11_111 _ _ j).trans ?_
  rw [pay30_at]
  refine congrArg (acc (ix3 0 0 0) + ·) ?_
  unfold rowsTotal total
  simp only [pay4_eq, pay5_eq, pay25_at, pay26_at, pay27_at, keepFirst_at, takeSecond_at]
  rfl

end Cert.KernelIdeal.Cells
end
-- ==== Proof.KernelRun.lean ====
/-
  The kernel's run, read as values.

  The grid has 784 points in two runs of 392, one run per value of the first grid coordinate. At every point the
  body loads a block of 4096 cells from each of the two flattened argument arrays, computes the block's loss and adds
  it to a one-element accumulator that lives across points; the first point of a run resets the accumulator to zero
  first, and the last point of a run copies the accumulator into the run's entry of a two-element result array, the
  only write-back of that run. After the region the host adds the two entries, starting from zero.

  Read here: what each of the three control cases leaves in the accumulator (the body's one step, from the zero block
  or from what the point before left) and in the output's buffer; hence, by the fold over a run, the accumulator after
  a run's last point: zero plus the sum of the run's 392 block losses; hence the two entries of the result array, and
  the host's sum of them. The body's step at the extended reals — previous contents plus the block's loss — is taken
  as a hypothesis here and supplied where the claims are assembled.
-/
import proofs.«111956_j13443247636702_2_alg».proof.Proof.Gen.KernelIdeal.Frame
import proofs.«111956_j13443247636702_2_alg».proof.Proof.KernelStep
import proofs.«111956_j13443247636702_2_alg».proof.Proof.RowLoss
import Idealize.ShloMosaic.Lib.Pipeline.Value
import Idealize.ShloMosaic.PureOps.Ideal.Laws
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Step

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves in the accumulator and in the output's buffer -/

/-- At a point that is neither the first nor the last of its core's row of blocks, the accumulator ends at the
    body's step from what the point before left in it. -/
theorem scratch_B (c : Dev nD) (i : grid0.Coords) (arg2 : Memref sig .tc .vmem S4096x30 .f32) (harg2 : arg2.IsWhole) (arg3 : Memref sig .tc .vmem S4096x30 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : ¬cond0_1 i)
    (x0 : Vec F S4096x30 .f32) (x1 : Vec F S4096x30 .f32) (xs0 : Vec F S1x1x1 .f32) :
    sout0_B_0 c i arg2 harg2 arg3 harg3 arg4 harg4 arg5 harg5 hc0 hc1 x0 x1 xs0 = bodyStep x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz3]
  simp only [View.readAt_eq_ld, harg2.read_unread, harg3.read_unread, harg5.read_unread,
    View.ld_unit_zero (S := S4096x30) hz2, View.ld_unit_zero (S := S1x1x1) hz3]
  rfl

/-- At the last point of a core's row of blocks the accumulator is updated in the same way, -/
theorem scratch_C (c : Dev nD) (i : grid0.Coords) (arg2 : Memref sig .tc .vmem S4096x30 .f32) (harg2 : arg2.IsWhole) (arg3 : Memref sig .tc .vmem S4096x30 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S4096x30 .f32) (x1 : Vec F S4096x30 .f32) (xs0 : Vec F S1x1x1 .f32) :
    sout0_C_0 c i arg2 harg2 arg3 harg3 arg4 harg4 arg5 harg5 hc0 hc1 x0 x1 xs0 = bodyStep x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S4096x30) hz2, View.ld_unit_zero (S := S1x1x1) hz3]
  rfl

/-- and the output's buffer receives the updated accumulator, read back. -/
theorem out_C (c : Dev nD) (i : grid0.Coords) (arg2 : Memref sig .tc .vmem S4096x30 .f32) (harg2 : arg2.IsWhole) (arg3 : Memref sig .tc .vmem S4096x30 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S4096x30 .f32) (x1 : Vec F S4096x30 .f32) (xs0 : Vec F S1x1x1 .f32) :
    out0_C_2 c i arg2 harg2 arg3 harg3 arg4 harg4 arg5 harg5 hc0 hc1 x0 x1 xs0 = k0_pay2 (bodyStep x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S4096x30) hz2, View.ld_unit_zero (S := S1x1x1) hz3,
    View.readCov_unit_zero (S := S1x1x1) _ hz3]
  rfl

/-- At the first point of a core's row of blocks the accumulator is first reset to the zero block, and the step
    starts from that. -/
theorem scratch_A (c : Dev nD) (i : grid0.Coords) (arg2 : Memref sig .tc .vmem S4096x30 .f32) (harg2 : arg2.IsWhole) (arg3 : Memref sig .tc .vmem S4096x30 .f32) (harg3 : arg3.IsWhole) (arg4 : Memref sig .tc .vmem S1x1x1 .f32) (harg4 : arg4.IsWhole) (arg5 : Memref sig .tc .vmem S1x1x1 .f32) (harg5 : arg5.IsWhole) (hc0 : cond0_0 i) (hc1 : ¬cond0_1 i)
    (x0 : Vec F S4096x30 .f32) (x1 : Vec F S4096x30 .f32) :
    sout0_A_0 c i arg2 harg2 arg3 harg3 arg4 harg4 arg5 harg5 hc0 hc1 x0 x1 = bodyStep x0 x1 k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread,
    View.ld_unit_zero (S := S4096x30) hz2, View.ld_unit_zero (S := S1x1x1) hz3]
  rfl

/-! ## The accumulator after each point: a fold over the core's run of blocks -/

variable (m : (ℓ : Loc nD τ sig) → Buf (Elt F) ℓ) (ρ : Dev nD → PrngReg)

/-- The two input blocks the body finds at point `n`. -/
abbrev blkP (c : Dev nD) (n : ℕ) (h : n < cfg0.N) : Vec F S4096x30 .f32 := iblk m c 0 ⟨n, h⟩
abbrev blkT (c : Dev nD) (n : ℕ) (h : n < cfg0.N) : Vec F S4096x30 .f32 := iblk m c 1 ⟨n, h⟩

/-- The accumulator's contents after point `t`: the grid's 784 points fall into two runs of 392 (one per value of the
    first grid coordinate); the first point of a run resets the accumulator and steps from the zero block, every
    later point steps from what the point before left. -/
theorem acc_fold (c : Dev nD) (q j : ℕ) (hj : j < 392) (h : 392 * q + j < cfg0.N) :
    (outsAt0 m c (392 * q + j) h).2
      = Pipeline.accAt (fun n h => bodyStep (blkP m c n h) (blkT m c n h) k0_pay3)
          (fun n h acc => bodyStep (blkP m c n h) (blkT m c n h) acc) (392 * q) j h := by
  refine Pipeline.eq_accAt (fun n h => (outsAt0 m c n h).2) 392 _ _ ?_ ?_ q j hj h
  · intro n h h0
    have h1 : ¬n % 392 = 391 := by omega
    show (outsAt0 m c n h).2 = _
    rw [outsAt0_A m c ⟨n, h⟩ h0 h1]
    dsimp only
    exact scratch_A c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) scM0_0 (Memref.isWhole_whole _) ((hcond0_0 ⟨n, h⟩).mpr h0) (fun hh => h1 ((hcond0_1 ⟨n, h⟩).mp hh))
      (iblk m c 0 ⟨n, h⟩) (iblk m c 1 ⟨n, h⟩)
  · intro n h h0
    show (outsAt0 m c (n + 1) h).2 = _
    by_cases h1 : (n + 1) % 392 = 391
    · rw [outsAt0_C m c ⟨n + 1, h⟩ h0 h1]
      dsimp only
      exact scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        ((hcond0_1 ⟨n + 1, h⟩).mpr h1) (iblk m c 0 ⟨n + 1, h⟩) (iblk m c 1 ⟨n + 1, h⟩)
        (outsAt0 m c n (Nat.lt_of_succ_lt h)).2
    · rw [outsAt0_B m c ⟨n + 1, h⟩ h0 h1]
      dsimp only
      exact scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        (fun hh => h1 ((hcond0_1 ⟨n + 1, h⟩).mp hh)) (iblk m c 0 ⟨n + 1, h⟩) (iblk m c 1 ⟨n + 1, h⟩)
        (outsAt0 m c n (Nat.lt_of_succ_lt h)).2

/-- At the last point of a run the output's buffer receives the accumulator's new contents, read back. -/
theorem out_last (c : Dev nD) (t : Fin cfg0.N) (h1 : t.val % 392 = 391) :
    (outsAt0 m c t.val t.isLt).1 = k0_pay2 (outsAt0 m c t.val t.isLt).2 := by
  have h0 : ¬t.val % 392 = 0 := by omega
  rw [outsAt0_C m c t h0 h1]
  dsimp only
  rw [out_C, scratch_C]

/-! ## At the extended reals: the accumulator at a run's last point is the sum of the run's block losses -/

section AtIdeal

open Cert.RowLoss Idealize.ShloMosaic.ValueIdx

variable (mI : (ℓ : Loc nD τ sig) → Buf (Elt Ideal) ℓ)
variable (hstep : ∀ (x0 x1 : Vec Ideal S4096x30 .f32) (acc : Vec Ideal S1x1x1 .f32),
  bodyStep (F := Ideal) x0 x1 acc = fun _ => acc (ix3 0 0 0) + rowsTotal (n := 4096) x0 x1)

/-- A one-element array has one index. -/
theorem idx111 (i : S1x1x1.Idx) : i = ix3 0 0 0 := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- The loss of the block of 4096 cells the body meets at point `n` (nothing past the grid). -/
def blockLoss (c : Dev nD) (n : ℕ) : EReal :=
  if h : n < cfg0.N then rowsTotal (n := 4096) (blkP mI c n h) (blkT mI c n h) else 0

theorem pay3_apply (i : S1x1x1.Idx) : k0_pay3 (F := Ideal) i = zero := rfl

include hstep in
/-- After the last point of run `q` the accumulator holds zero plus the losses of the run's 392 blocks. -/
theorem acc_last (c : Dev nD) (q : ℕ) (h : 392 * q + 391 < cfg0.N) (i : S1x1x1.Idx) :
    (outsAt0 mI c (392 * q + 391) h).2 i = zero + ∑ s ∈ Finset.range 392, blockLoss mI c (392 * q + s) := by
  rw [acc_fold mI c q 391 (by decide) h]
  refine (Pipeline.accAt_add_apply _ _ (fun i => k0_pay3 (F := Ideal) i) (fun n _ => blockLoss mI c n) (392 * q) 391
    ?_ ?_ 391 (le_refl _) h i).trans ?_
  · intro hb i
    show bodyStep (blkP mI c (392 * q) hb) (blkT mI c (392 * q) hb) (k0_pay3 (F := Ideal)) i = k0_pay3 (F := Ideal) i + blockLoss mI c (392 * q)
    rw [hstep, idx111 i]
    unfold blockLoss
    rw [dif_pos hb]
  · intro n hn acc i _ _
    show bodyStep (blkP mI c n hn) (blkT mI c n hn) acc i = acc i + blockLoss mI c n
    rw [hstep, idx111 i]
    unfold blockLoss
    rw [dif_pos hn]
  · rfl

end AtIdeal

section AtIdeal2

open Cert.RowLoss Idealize.ShloMosaic.ValueIdx

variable (mI : (ℓ : Loc nD τ sig) → Buf (Elt Ideal) ℓ)
variable (hstep : ∀ (x0 x1 : Vec Ideal S4096x30 .f32) (acc : Vec Ideal S1x1x1 .f32),
  bodyStep (F := Ideal) x0 x1 acc = fun _ => acc (ix3 0 0 0) + rowsTotal (n := 4096) x0 x1)

/-- The output's block index at point `t`: the run's number on the first axis, zero on the two unit axes. -/
theorem outIdx_0 : ∀ t : Fin cfg0.N, win0_2.index t 0 = t.val / 392 :=
  (by decide +kernel : ∀ t : Fin grid0.N, win0_2.index t 0 = t.val / 392)
theorem outIdx_1 : ∀ t : Fin cfg0.N, win0_2.index t 1 = 0 :=
  (by decide +kernel : ∀ t : Fin grid0.N, win0_2.index t 1 = 0)
theorem outIdx_2 : ∀ t : Fin cfg0.N, win0_2.index t 2 = 0 :=
  (by decide +kernel : ∀ t : Fin grid0.N, win0_2.index t 2 = 0)

/-- What the region leaves in its two-element result array: entry `q` is zero plus the losses of run `q`'s blocks. -/
def outArr (c : Dev nD) : S2x1x1.Idx → EReal :=
  fun i => zero + ∑ s ∈ Finset.range 392, blockLoss mI c (392 * (i 0).val + s)

/-- The read-back through two changes of shape that keep the one element in place is the identity. -/
theorem pay2_id (v : Vec Ideal S1x1x1 .f32) : k0_pay2 (F := Ideal) v = v := by
  unfold k0_pay2
  exact shapeCast_shapeCast v _ _

include hstep in
/-- The one write-back of run `q`, at its last point, writes entry `q` of that array. -/
theorem flushed_eq (c : Dev nD) (t : Fin cfg0.N) (hf : (cfg0.win 2).flush t = true) :
    (dats mI 0 c).flushed 2 t = ((cfg0.win 2).blk t).view.read (Elt Ideal) (outArr mI c) := by
  have hN : cfg0.N = 784 := N_0
  have h1 : t.val % 392 = 391 := (flush0_2 t).mp hf
  show (cfg0.win 2).cut (grid0.coords t) ((dats mI 0 c).after 2 t) = _
  rw [after0_2, out_last mI c t h1, pay2_id]
  funext y
  rw [View.read_apply]
  obtain ⟨q, hq⟩ : ∃ q, t.val = 392 * q + 391 := ⟨t.val / 392, by omega⟩
  have key : ∀ (n : ℕ) (hn : n < cfg0.N), n = 392 * q + 391 → ∀ i, (outsAt0 mI c n hn).2 i
      = zero + ∑ s ∈ Finset.range 392, blockLoss mI c (392 * q + s) := by
    intro n hn e i; subst e; exact acc_last mI hstep c q hn i
  have he : ((((cfg0.win 2).blk t).view.emb y) 0).val = q := by
    show win0_2.index t 0 * 1 + 1 * (y 0).val = q
    have hy : (y 0).val < 1 := (y 0).isLt
    rw [outIdx_0 t]; omega
  show (outsAt0 mI c t.val t.isLt).2 ((cfg0.win 2).xinj (grid0.coords t) y) = outArr mI c (((cfg0.win 2).blk t).view.emb y)
  rw [key t.val t.isLt hq]
  unfold outArr
  rw [he]

/-- Every entry of the result array is written back by its run's last point. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 1 := (i 2).isLt
  have hN : cfg0.N = 784 := N_0
  have hlt : 392 * (i 0 : Nat) + 391 < cfg0.N := by omega
  refine ⟨⟨392 * (i 0 : Nat) + 391, hlt⟩, (flush0_2 _).mpr (by show (392 * (i 0 : Nat) + 391) % 392 = 391; omega), ?_⟩
  show i ∈ ((View.whole main_v2).slice (win0_2.rect ⟨392 * (i 0 : Nat) + 391, hlt⟩)).set
  rw [View.set_slice_whole, Rect.mem_set_unit]
  intro a
  match a with
  | ⟨0, _⟩ =>
    show win0_2.index ⟨392 * (i 0 : Nat) + 391, hlt⟩ 0 * 1 ≤ (i 0 : Nat) ∧ (i 0 : Nat) < win0_2.index ⟨392 * (i 0 : Nat) + 391, hlt⟩ 0 * 1 + 1
    rw [outIdx_0]; show (392 * (i 0 : Nat) + 391) / 392 * 1 ≤ (i 0 : Nat) ∧ (i 0 : Nat) < (392 * (i 0 : Nat) + 391) / 392 * 1 + 1; omega
  | ⟨1, _⟩ =>
    show win0_2.index ⟨392 * (i 0 : Nat) + 391, hlt⟩ 1 * 1 ≤ (i 1 : Nat) ∧ (i 1 : Nat) < win0_2.index ⟨392 * (i 0 : Nat) + 391, hlt⟩ 1 * 1 + 1
    rw [outIdx_1]; omega
  | ⟨2, _⟩ =>
    show win0_2.index ⟨392 * (i 0 : Nat) + 391, hlt⟩ 2 * 1 ≤ (i 2 : Nat) ∧ (i 2 : Nat) < win0_2.index ⟨392 * (i 0 : Nat) + 391, hlt⟩ 2 * 1 + 1
    rw [outIdx_2]; omega

include hstep in
/-- So the region leaves exactly that array. -/
theorem final_out (c : Dev nD) : (dats mI 0 c).arrAt 2 cfg0.N = outArr mI c :=
  (dats mI 0 c).arrAt_eq_of_cover 2 (outArr mI c) (flushed_eq mI hstep c) (covered c)

include hstep in
/-- The host's sum of the two entries after the region, from the zero it starts at. -/
theorem result_eq (c : Dev nD) :
    Pipeline.afterTail₀ cfgs (dats mI) 0 (V0 mI) [hostOps1] c main_v3
      = fun _ => zero + ∑ j : S2x1x1.Idx, outArr mI c j := by
  unfold Pipeline.afterTail₀
  show StableHlo.after hostOps1 _ (Proc.devRef .tc main_v3) = _
  after_results
  have e : Pipeline.withArrays (cfgs 0).spec c (V0 mI c) (fun w => (dats mI 0 c).arrAt w (cfgs 0).N) (Proc.devRef .tc main_v2)
      = outArr mI c := (Pipeline.withArrays_arr spec0 launch0.win.arr_inj c _ _ 2).trans (final_out mI hstep c)
  rw [e]
  funext i
  simp only [Host.reduceAdd, Ideal.hostReduceAdd_def]
  exact Ideal.hostReduceAdd_total reducesTo_S2x1x1_S_d0_1_2 (fun b => b.elim0) (outArr mI c) _ i

include hstep in
/-- The kernel's run, read: its result is zero plus the two entries of the region's array; the arguments are unchanged. -/
theorem run (ρ : Dev nD → PrngReg) :
    θ_run defs (onTc (τ := τ) (main (F := Ideal))) ⟨mI, fun _ => 0, ρ⟩ fun r => ∀ c : Dev nD,
      r.2.mem ((c.tc : Thread nD τ).loc main_v3) = (fun _ => zero + ∑ j : S2x1x1.Idx, outArr mI c j)
      ∧ r.2.mem ((c.tc : Thread nD τ).loc main_arg0) = mI ((c.tc : Thread nD τ).loc main_arg0)
      ∧ r.2.mem ((c.tc : Thread nD τ).loc main_arg1) = mI ((c.tc : Thread nD τ).loc main_arg1) :=
  (θ_run defs _ _).mono (fun _ h c =>
    ⟨((h c).2 main_v3 (Pipeline.mem_restRefs_of main_v3 (by decide) (by decide))).trans (result_eq mI hstep c),
     ((h c).2 main_arg0 (Pipeline.mem_restRefs_of main_arg0 (by decide) (by decide))).trans (W_main_arg0 mI (dats mI) c),
     ((h c).2 main_arg1 (Pipeline.mem_restRefs_of main_arg1 (by decide) (by decide))).trans (W_main_arg1 mI (dats mI) c)⟩)
    (run_main mI ρ)

end AtIdeal2

end Cert.KernelIdeal.RunValue

end
-- ==== Proof.Regroup.lean ====
/-
  The regrouping algebra of the detection loss over the extended reals.

  The loss of a family of cells is  Σ objectness + ½ · (Σ no-object, first + Σ no-object, second) + Σ classes.
  Three facts about it, none of which needs any value to be finite:

  * summed block by block — 784 blocks of 4096 consecutive rows — it is the loss of all 3211264 rows: addition of
    extended reals is commutative and associative, and multiplication by the non-negative real ½ distributes over
    finite sums;
  * the literal patterns for zero and one half denote 0 and 1/2;
  * grouped as four separate sums over the four-dimensional arrangement of the cells — 65536 × 7 × 7 cells, each sum
    started from zero, the objectness sum preceded by five times zero — it is the loss of the rows 49 n + 7 i + k of the
    flattened arrays: n ↦ (n / 49, n / 7 mod 7, n mod 7) is a bijection of the rows with the cells.
-/
import proofs.«111956_j13443247636702_2_alg».proof.Proof.RowLoss
import Idealize.ShloMosaic.PureOps.Ideal
import Idealize.ShloMosaic.PureOps.Ideal.Laws
import Idealize.ShloMosaic.Lib.ValueIdx
import Mathlib.Algebra.BigOperators.Fin
import Mathlib.Data.EReal.Operations

noncomputable section

namespace Cert.RowLoss

open Idealize.ShloMosaic Idealize.ShloMosaic.ValueIdx

/-- Block t (4096 consecutive rows) of an array of 784 · 4096 rows. -/
def blockOf (y : (⟨2, ![3211264, 30]⟩ : Shape).Idx → EReal) (t : Fin 784) : (⟨2, ![4096, 30]⟩ : Shape).Idx → EReal :=
  fun j => y (ix2 ⟨t.val * 4096 + (j 0).val, by have := idx2_lt0 j; have := t.isLt; omega⟩ (j 1))

/-- The four-dimensional array of cells laid out as rows: row 49 n + 7 i + k is cell (n, i, k). -/
def flat (x : (⟨4, ![65536, 7, 7, 30]⟩ : Shape).Idx → EReal) : (⟨2, ![3211264, 30]⟩ : Shape).Idx → EReal :=
  fun i => x (ix4 ⟨(i 0).val / 49, by have := idx2_lt0 i; omega⟩ ⟨(i 0).val / 7 % 7, Nat.mod_lt _ (by decide)⟩
    ⟨(i 0).val % 7, Nat.mod_lt _ (by decide)⟩ (i 1))

/-- The loss as the reference program groups it. -/
def refTotal (x0 x1 : (⟨4, ![65536, 7, 7, 30]⟩ : Shape).Idx → EReal) : EReal :=
  ((five * zero + (zero + ∑ j : (⟨4, ![65536, 7, 7, 1]⟩ : Shape).Idx, cellObj (cell4 x0 j) (cell4 x1 j)))
    + half * ((zero + ∑ j : (⟨4, ![65536, 7, 7, 1]⟩ : Shape).Idx, cellNoFirst (cell4 x0 j) (cell4 x1 j))
              + (zero + ∑ j : (⟨4, ![65536, 7, 7, 1]⟩ : Shape).Idx, cellNoSecond (cell4 x0 j) (cell4 x1 j))))
  + (zero + ∑ j : (⟨4, ![65536, 7, 7, 20]⟩ : Shape).Idx, cellCls (cell4 x0 j) (cell4 x1 j) (j 3))

/-! ## The two literals the regrouping needs -/

/-- The all-zero pattern denotes 0. -/
theorem zero_eq : zero = 0 := Ideal.ofBits_zero_f32

/-- The pattern 0x3F000000 has sign 0, exponent field 126 and fraction 0: it denotes 2^23 · 2^(126 - 127 - 23) = 1/2. -/
theorem half_eq : half = ((1 / 2 : ℝ) : EReal) := by
  show Ideal.ofBits .f32 0x3F000000#32 = _
  simp [Ideal.ofBits, Ideal.ieee, -EReal.coe_mul]
  norm_num

/-- One half is not negative … -/
theorem half_ge_zero : (0 : EReal) ≤ half := by
  rw [half_eq]; exact_mod_cast (by norm_num : (0 : ℝ) ≤ 1 / 2)

/-- … and is finite. -/
theorem half_ne_top : half ≠ ⊤ := by
  rw [half_eq]; exact EReal.coe_ne_top _

/-- One half is a non-negative real, so multiplying by it distributes over a sum of two extended reals, whatever
    their signs and whether or not they are finite. -/
theorem half_mul_add (a b : EReal) : half * (a + b) = half * a + half * b :=
  EReal.left_distrib_of_nonneg_of_ne_top half_ge_zero half_ne_top a b

/-- … and so over any finite sum. -/
theorem half_mul_sum {κ : Type} (s : Finset κ) (f : κ → EReal) : half * ∑ t ∈ s, f t = ∑ t ∈ s, half * f t := by
  classical
  induction s using Finset.induction_on with
  | empty => rw [Finset.sum_empty, Finset.sum_empty, mul_zero]
  | insert a s ha ih => rw [Finset.sum_insert ha, Finset.sum_insert ha, half_mul_add, ih]

/-! ## The loss of a family may be computed group by group -/

/-- A sum of totals over the groups is the total over all pairs (group, member). -/
theorem sum_total {κ ι : Type} [Fintype κ] [Fintype ι] (o n1 n2 cl : κ → ι → EReal) :
    ∑ t, total (o t) (n1 t) (n2 t) (cl t)
      = total (fun p : κ × ι => o p.1 p.2) (fun p => n1 p.1 p.2) (fun p => n2 p.1 p.2) (fun p => cl p.1 p.2) := by
  unfold total
  simp only [Fintype.sum_prod_type]
  rw [Finset.sum_add_distrib, Finset.sum_add_distrib, ← half_mul_sum, Finset.sum_add_distrib]

/-- The total does not depend on how the family is indexed. -/
theorem total_equiv {ι κ : Type} [Fintype ι] [Fintype κ] (e : ι ≃ κ) (o n1 n2 cl : κ → EReal) :
    total (fun i => o (e i)) (fun i => n1 (e i)) (fun i => n2 (e i)) (fun i => cl (e i)) = total o n1 n2 cl := by
  unfold total
  rw [Equiv.sum_comp e o, Equiv.sum_comp e n1, Equiv.sum_comp e n2, Equiv.sum_comp e cl]

/-! ## Rows in blocks of 4096 -/

/-- Row t · 4096 + q is row q of block t: a bijection of 784 × 4096 with the 3211264 rows. -/
def blockEquiv : Fin 784 × Fin 4096 ≃ Fin 3211264 where
  toFun p := ⟨p.1.val * 4096 + p.2.val, by have := p.1.isLt; have := p.2.isLt; omega⟩
  invFun r := (⟨r.val / 4096, by have := r.isLt; omega⟩, ⟨r.val % 4096, Nat.mod_lt _ (by decide)⟩)
  left_inv p := by
    have h1 := p.1.isLt; have h2 := p.2.isLt
    refine Prod.ext (Fin.ext ?_) (Fin.ext ?_)
    · show (p.1.val * 4096 + p.2.val) / 4096 = p.1.val; omega
    · show (p.1.val * 4096 + p.2.val) % 4096 = p.2.val; omega
  right_inv r := by
    refine Fin.ext ?_
    show r.val / 4096 * 4096 + r.val % 4096 = r.val; omega

/-- The losses of the 784 blocks add up to the loss of all the rows. -/
theorem sum_blocks (y0 y1 : (⟨2, ![3211264, 30]⟩ : Shape).Idx → EReal) :
    ∑ t : Fin 784, rowsTotal (n := 4096) (blockOf y0 t) (blockOf y1 t) = rowsTotal (n := 3211264) y0 y1 := by
  unfold rowsTotal
  rw [sum_total]
  exact total_equiv blockEquiv (fun r => cellObj (row y0 r) (row y1 r)) (fun r => cellNoFirst (row y0 r) (row y1 r))
    (fun r => cellNoSecond (row y0 r) (row y1 r)) (fun r => ∑ l : Fin 20, cellCls (row y0 r) (row y1 r) l)

/-! ## Cells as rows -/

/-- Cell (n, i, k) is row 49 n + 7 i + k: a bijection of the cells (the fourth axis has one element) with the rows. -/
def cellEquiv : (⟨4, ![65536, 7, 7, 1]⟩ : Shape).Idx ≃ Fin 3211264 where
  toFun j := ⟨49 * (j 0).val + 7 * (j 1).val + (j 2).val, by
    have h0 : (j 0).val < 65536 := (j 0).isLt
    have h1 : (j 1).val < 7 := (j 1).isLt
    have h2 : (j 2).val < 7 := (j 2).isLt
    omega⟩
  invFun r := ix4 ⟨r.val / 49, by have := r.isLt; omega⟩ ⟨r.val / 7 % 7, Nat.mod_lt _ (by decide)⟩
    ⟨r.val % 7, Nat.mod_lt _ (by decide)⟩ ⟨0, Nat.one_pos⟩
  left_inv j := by
    have h0 : (j 0).val < 65536 := (j 0).isLt
    have h1 : (j 1).val < 7 := (j 1).isLt
    have h2 : (j 2).val < 7 := (j 2).isLt
    have h3 : (j 3).val < 1 := (j 3).isLt
    funext a
    match a with
    | ⟨0, _⟩ => exact Fin.ext (show (49 * (j 0).val + 7 * (j 1).val + (j 2).val) / 49 = (j 0).val by omega)
    | ⟨1, _⟩ => exact Fin.ext (show (49 * (j 0).val + 7 * (j 1).val + (j 2).val) / 7 % 7 = (j 1).val by omega)
    | ⟨2, _⟩ => exact Fin.ext (show (49 * (j 0).val + 7 * (j 1).val + (j 2).val) % 7 = (j 2).val by omega)
    | ⟨3, _⟩ => exact Fin.ext (show 0 = (j 3).val by omega)
  right_inv r := by
    refine Fin.ext ?_
    show 49 * (r.val / 49) + 7 * (r.val / 7 % 7) + r.val % 7 = r.val; omega

/-- The same with a class index carried along. -/
def cellClsEquiv : (⟨4, ![65536, 7, 7, 20]⟩ : Shape).Idx ≃ Fin 3211264 × Fin 20 where
  toFun j := (⟨49 * (j 0).val + 7 * (j 1).val + (j 2).val, by
    have h0 : (j 0).val < 65536 := (j 0).isLt
    have h1 : (j 1).val < 7 := (j 1).isLt
    have h2 : (j 2).val < 7 := (j 2).isLt
    omega⟩, j 3)
  invFun p := ix4 ⟨p.1.val / 49, by have := p.1.isLt; omega⟩ ⟨p.1.val / 7 % 7, Nat.mod_lt _ (by decide)⟩
    ⟨p.1.val % 7, Nat.mod_lt _ (by decide)⟩ p.2
  left_inv j := by
    have h0 : (j 0).val < 65536 := (j 0).isLt
    have h1 : (j 1).val < 7 := (j 1).isLt
    have h2 : (j 2).val < 7 := (j 2).isLt
    funext a
    match a with
    | ⟨0, _⟩ => exact Fin.ext (show (49 * (j 0).val + 7 * (j 1).val + (j 2).val) / 49 = (j 0).val by omega)
    | ⟨1, _⟩ => exact Fin.ext (show (49 * (j 0).val + 7 * (j 1).val + (j 2).val) / 7 % 7 = (j 1).val by omega)
    | ⟨2, _⟩ => exact Fin.ext (show (49 * (j 0).val + 7 * (j 1).val + (j 2).val) % 7 = (j 2).val by omega)
    | ⟨3, _⟩ => rfl
  right_inv p := by
    refine Prod.ext (Fin.ext ?_) rfl
    show 49 * (p.1.val / 49) + 7 * (p.1.val / 7 % 7) + p.1.val % 7 = p.1.val; omega

/-- A sum over the cells of a term of a cell's values is the sum over the rows of the flattened arrays. -/
theorem sum_cells (x0 x1 : (⟨4, ![65536, 7, 7, 30]⟩ : Shape).Idx → EReal)
    (F : (Fin 30 → EReal) → (Fin 30 → EReal) → EReal) :
    ∑ j : (⟨4, ![65536, 7, 7, 1]⟩ : Shape).Idx, F (cell4 x0 j) (cell4 x1 j)
      = ∑ r : Fin 3211264, F (row (flat x0) r) (row (flat x1) r) :=
  (Equiv.sum_comp cellEquiv.symm (fun j => F (cell4 x0 j) (cell4 x1 j))).symm

/-- A sum over cells and classes is the sum over the rows of the sum over the classes. -/
theorem sum_cells_cls (x0 x1 : (⟨4, ![65536, 7, 7, 30]⟩ : Shape).Idx → EReal)
    (F : (Fin 30 → EReal) → (Fin 30 → EReal) → Fin 20 → EReal) :
    ∑ j : (⟨4, ![65536, 7, 7, 20]⟩ : Shape).Idx, F (cell4 x0 j) (cell4 x1 j) (j 3)
      = ∑ r : Fin 3211264, ∑ l : Fin 20, F (row (flat x0) r) (row (flat x1) r) l := by
  rw [← Equiv.sum_comp cellClsEquiv.symm (fun j => F (cell4 x0 j) (cell4 x1 j) (j 3)), Fintype.sum_prod_type]
  rfl

/-- The reference's grouping is the loss of the rows of the flattened arrays: its leading terms five times zero and
    zero are 0, and each of its four sums is re-indexed from cells to rows. -/
theorem refTotal_eq (x0 x1 : (⟨4, ![65536, 7, 7, 30]⟩ : Shape).Idx → EReal) :
    refTotal x0 x1 = rowsTotal (n := 3211264) (flat x0) (flat x1) := by
  unfold refTotal rowsTotal total
  rw [sum_cells x0 x1 cellObj, sum_cells x0 x1 cellNoFirst, sum_cells x0 x1 cellNoSecond,
    sum_cells_cls x0 x1 cellCls]
  simp only [zero_eq, mul_zero, zero_add]

end Cert.RowLoss

end
-- ==== Proof.KernelTotal.lean ====
/-
  The kernel's result as the loss of all cells.

  The region's two input arrays are the two arguments reshaped from 65536 × 7 × 7 × 30 to 3211264 × 30: row
  49 n + 7 i + k of the reshaped array is cell (n, i, k), the same row-major position. The block the body meets at grid
  point t is rows 4096 t … 4096 t + 4095 of each. So the two entries of the region's result array are the losses of
  blocks 0 … 391 and 392 … 783, and their sum from zero is the loss of all 784 blocks, which is the loss of all
  3211264 rows of the flattened arguments.
-/
import proofs.«111956_j13443247636702_2_alg».proof.Proof.KernelRun
import proofs.«111956_j13443247636702_2_alg».proof.Proof.Regroup

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Step Cert.RowLoss Idealize.ShloMosaic.ValueIdx

variable (mI : (ℓ : Loc nD τ sig) → Buf (Elt Ideal) ℓ)

/-- The input windows' block index at point `t`: block `t` of the rows, all thirty columns. -/
theorem inIdx0_0 : ∀ t : Fin cfg0.N, win0_0.index t 0 = t.val :=
  (by decide +kernel : ∀ t : Fin grid0.N, win0_0.index t 0 = t.val)
theorem inIdx0_1 : ∀ t : Fin cfg0.N, win0_0.index t 1 = 0 :=
  (by decide +kernel : ∀ t : Fin grid0.N, win0_0.index t 1 = 0)
theorem inIdx1_0 : ∀ t : Fin cfg0.N, win0_1.index t 0 = t.val :=
  (by decide +kernel : ∀ t : Fin grid0.N, win0_1.index t 0 = t.val)
theorem inIdx1_1 : ∀ t : Fin cfg0.N, win0_1.index t 1 = 0 :=
  (by decide +kernel : ∀ t : Fin grid0.N, win0_1.index t 1 = 0)

/-- A reshape from 65536 × 7 × 7 × 30 to 3211264 × 30 reads row r, column ch at cell (r / 49, r / 7 mod 7, r mod 7),
    channel ch: the same row-major position. -/
theorem reshape_flat (x : S65536x7x7x30.Idx → EReal) :
    shapeCast S3211264x30 x shapeCasts_S65536x7x7x30_S3211264x30 = flat x := by
  funext i
  unfold flat
  refine shapeCast_apply x _ i _ ?_
  rw [Shape.rowMajor_val_four, Shape.rowMajor_val_two]
  have h0 : (i 0).val < 3211264 := (i 0).isLt
  have h1 : (i 1).val < 30 := (i 1).isLt
  show ((((i 0).val / 49 * 7 + (i 0).val / 7 % 7) * 7 + (i 0).val % 7) * 30 + (i 1).val) = (i 0).val * 30 + (i 1).val
  omega

/-- The first input array as the region finds it: the first argument, flattened. -/
theorem V_pred (c : Dev nD) : (V mI c main_v0 : S3211264x30.Idx → EReal) = flat (mI ((c : Thread nD τ).loc main_arg0)) := by
  have e : (V mI c main_v0 : S3211264x30.Idx → EReal)
      = shapeCast S3211264x30 (mI ((c : Thread nD τ).loc main_arg0)) shapeCasts_S65536x7x7x30_S3211264x30 := by
    show StableHlo.after hostOps0 (fun b => mI (c, b)) (Proc.devRef .tc main_v0) = _
    after_results
    rfl
  rw [e, reshape_flat]

/-- The second input array as the region finds it: the second argument, flattened. -/
theorem V_targ (c : Dev nD) : (V mI c main_v1 : S3211264x30.Idx → EReal) = flat (mI ((c : Thread nD τ).loc main_arg1)) := by
  have e : (V mI c main_v1 : S3211264x30.Idx → EReal)
      = shapeCast S3211264x30 (mI ((c : Thread nD τ).loc main_arg1)) shapeCasts_S65536x7x7x30_S3211264x30 := by
    show StableHlo.after hostOps0 (fun b => mI (c, b)) (Proc.devRef .tc main_v1) = _
    after_results
    rfl
  rw [e, reshape_flat]

/-- The block of the first input the body meets at point `n` is block `n` of the flattened first argument. -/
theorem blkP_eq (c : Dev nD) (n : ℕ) (h : n < cfg0.N) (h' : n < 784) :
    (blkP mI c n h : S4096x30.Idx → EReal) = blockOf (flat (mI ((c : Thread nD τ).loc main_arg0))) ⟨n, h'⟩ := by
  funext j
  show iblk mI c 0 ⟨n, h⟩ j = _
  unfold iblk
  rw [View.read_apply]
  show (V mI c main_v0 : S3211264x30.Idx → EReal) (((cfg0.win 0).blk ⟨n, h⟩).view.emb j) = _
  rw [V_pred]
  unfold blockOf
  refine congrArg _ (Shape.idx_ext₂ ?_ ?_)
  · show win0_0.index ⟨n, h⟩ 0 * 4096 + 1 * (j 0).val = n * 4096 + (j 0).val
    rw [inIdx0_0]
    show n * 4096 + 1 * (j 0).val = n * 4096 + (j 0).val
    omega
  · show win0_0.index ⟨n, h⟩ 1 * 30 + 1 * (j 1).val = (j 1).val
    rw [inIdx0_1]
    omega

/-- The same for the second input and the second argument. -/
theorem blkT_eq (c : Dev nD) (n : ℕ) (h : n < cfg0.N) (h' : n < 784) :
    (blkT mI c n h : S4096x30.Idx → EReal) = blockOf (flat (mI ((c : Thread nD τ).loc main_arg1))) ⟨n, h'⟩ := by
  funext j
  show iblk mI c 1 ⟨n, h⟩ j = _
  unfold iblk
  rw [View.read_apply]
  show (V mI c main_v1 : S3211264x30.Idx → EReal) (((cfg0.win 1).blk ⟨n, h⟩).view.emb j) = _
  rw [V_targ]
  unfold blockOf
  refine congrArg _ (Shape.idx_ext₂ ?_ ?_)
  · show win0_1.index ⟨n, h⟩ 0 * 4096 + 1 * (j 0).val = n * 4096 + (j 0).val
    rw [inIdx1_0]
    show n * 4096 + 1 * (j 0).val = n * 4096 + (j 0).val
    omega
  · show win0_1.index ⟨n, h⟩ 1 * 30 + 1 * (j 1).val = (j 1).val
    rw [inIdx1_1]
    omega

/-- The loss of the block at point `n`, over the flattened arguments. -/
theorem blockLoss_eq (c : Dev nD) (n : ℕ) (h' : n < 784) :
    blockLoss mI c n = rowsTotal (n := 4096) (blockOf (flat (mI ((c : Thread nD τ).loc main_arg0))) ⟨n, h'⟩)
      (blockOf (flat (mI ((c : Thread nD τ).loc main_arg1))) ⟨n, h'⟩) := by
  have h : n < cfg0.N := by rw [show cfg0.N = 784 from N_0]; exact h'
  unfold blockLoss
  rw [dif_pos h, blkP_eq mI c n h h', blkT_eq mI c n h h']

/-- The indices of a 2 × 1 × 1 array are its first coordinates. -/
def twoEquiv : S2x1x1.Idx ≃ Fin 2 where
  toFun := fun j => j 0
  invFun := fun a => ix3 a 0 0
  left_inv := fun j => by
    funext a
    match a with
    | ⟨0, _⟩ => rfl
    | ⟨1, _⟩ => exact Fin.ext (by have h : (j 1).val < 1 := (j 1).isLt; show 0 = (j 1).val; omega)
    | ⟨2, _⟩ => exact Fin.ext (by have h : (j 2).val < 1 := (j 2).isLt; show 0 = (j 2).val; omega)
  right_inv := fun a => rfl

/-- A sum over the indices of a 2 × 1 × 1 array is the sum of its two entries. -/
theorem sum_two (f : S2x1x1.Idx → EReal) : ∑ j : S2x1x1.Idx, f j = f (ix3 0 0 0) + f (ix3 1 0 0) := by
  rw [← Equiv.sum_comp twoEquiv.symm f, Fin.sum_univ_two]
  rfl

/-- The kernel's result: zero plus the two entries of the region's array is the loss of all rows of the flattened
    arguments. -/
theorem kernel_total (c : Dev nD) :
    (zero + ∑ j : S2x1x1.Idx, outArr mI c j)
      = rowsTotal (n := 3211264) (flat (mI ((c : Thread nD τ).loc main_arg0))) (flat (mI ((c : Thread nD τ).loc main_arg1))) := by
  rw [sum_two, ← sum_blocks]
  unfold outArr
  rw [zero_eq, zero_add, zero_add, zero_add]
  have hR : ∑ t : Fin 784, rowsTotal (n := 4096) (blockOf (flat (mI ((c : Thread nD τ).loc main_arg0))) t)
      (blockOf (flat (mI ((c : Thread nD τ).loc main_arg1))) t) = ∑ n ∈ Finset.range 784, blockLoss mI c n := by
    rw [← Fin.sum_univ_eq_sum_range (fun n => blockLoss mI c n) 784]
    exact Finset.sum_congr rfl fun t _ => (blockLoss_eq mI c t.val t.isLt).symm
  rw [hR, show (784 : ℕ) = 392 + 392 from rfl, Finset.sum_range_add]
  show ∑ s ∈ Finset.range 392, blockLoss mI c (392 * 0 + s) + ∑ s ∈ Finset.range 392, blockLoss mI c (392 * 1 + s) = _
  simp only [Nat.mul_zero, Nat.zero_add, Nat.mul_one]

end Cert.KernelIdeal.RunValue

end
-- ==== Proof.RefCells.lean ====
/-
  The reference program's value over the extended reals, cell by cell.

  The reference computes the detection loss of RowLoss.lean with whole-array operations: it cuts the channels of
  the two boxes out of the prediction and the target, forms the edges of each box, the two overlap ratios with the
  target box, the indicator of the responsible box, the four masked differences, squares them and sums each over
  all cells. Read at one cell, every stage is the corresponding term of RowLoss.lean. Three spellings differ and are
  reconciled here: the reference halves an extent by dividing by two, where the specification multiplies by one
  half (equal at every extended real, the infinities included); it clips at zero by taking the larger of a
  converted integer zero and the operand, zero on the left; and it writes the comparison's one bit as a number by
  an unsigned conversion, which is the specification's own spelling.

  The result: the program's scalar is five times zero plus the objectness sum, plus one half of the two no-object
  sums, plus the class sum over all cells and all twenty classes, each sum started from the literal zero.
-/
import proofs.«111956_j13443247636702_2_alg».proof.Proof.RefRead
import proofs.«111956_j13443247636702_2_alg».proof.Proof.RowLoss
import Idealize.ShloMosaic.PureOps.Ideal
import Idealize.ShloMosaic.PureOps.Ideal.Laws
import Idealize.ShloMosaic.Lib.ValueIdx

noncomputable section

namespace Cert.RefCells

open Idealize.ShloMosaic Idealize.ShloMosaic.ValueIdx Cert.ReferenceIdeal Cert.RowLoss
open Cert.ReferenceIdeal.Read

/-! ## The literals -/

theorem two_eq : two = ((2 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

/-- Dividing by two is multiplying by one half, at the infinities too. -/
theorem div_two (x : EReal) : Ideal.div x two = x * half := by
  rw [two_eq, half_eq]; exact Ideal.div_coe (by norm_num) x

/-- The integer zero, converted, is the float zero. -/
theorem sitofp_zero : (FloatOps.sitofp (F := Ideal) .f32 (0#32) : EReal) = zero := by
  show (((0#32 : BitVec 32).toInt : ℝ) : EReal) = Ideal.ofBits .f32 0x00000000#32
  rw [Ideal.ofBits_zero_f32]; simp

/-! ## Reading a cell's channel -/

/-- An element of a thirty-channel array, at an index whose first three coordinates are the cell's and whose last
    is the channel. -/
theorem cell_read {k : Nat} (x : S65536x7x7x30.Idx → EReal) (j : (⟨4, ![65536, 7, 7, k]⟩ : Shape).Idx)
    (p : S65536x7x7x30.Idx) (ch : Fin 30)
    (h0 : (p 0).val = (j 0).val) (h1 : (p 1).val = (j 1).val) (h2 : (p 2).val = (j 2).val) (h3 : (p 3).val = ch.val) :
    x p = cell4 x j ch := by
  unfold cell4
  congr 1
  funext a
  match a with
  | ⟨0, _⟩ => exact Fin.ext h0
  | ⟨1, _⟩ => exact Fin.ext h1
  | ⟨2, _⟩ => exact Fin.ext h2
  | ⟨3, _⟩ => exact Fin.ext h3

/-- The last coordinate of an index into an axis of extent one. -/
theorem last_zero (j : S65536x7x7x1.Idx) : (j 3).val = 0 := by
  have h : (j 3).val < 1 := (j 3).isLt
  omega

variable (x0 x1 : (⟨S65536x7x7x30, .f32⟩ : BufTy).Contents (Elt Ideal)) (j : S65536x7x7x1.Idx)

/-! ### The first predicted box: channels 21 to 24 of the prediction -/

theorem v2_at : val_main_v2 (F := Ideal) x0 j = cell4 x0 j 21 := by
  rw [val_main_v2_apply, val_main_v0_apply]
  exact cell_read x0 j _ 21 rfl rfl rfl (by show 21 + (j 3).val = 21; rw [last_zero])
theorem v3_at : val_main_v3 (F := Ideal) x0 j = cell4 x0 j 23 := by
  rw [val_main_v3_apply, val_main_v0_apply]
  exact cell_read x0 j _ 23 rfl rfl rfl (by show 21 + (2 + (j 3).val) = 23; rw [last_zero])
theorem v7_at : val_main_v7 (F := Ideal) x0 j = cell4 x0 j 22 := by
  rw [val_main_v7_apply, val_main_v0_apply]
  exact cell_read x0 j _ 22 rfl rfl rfl (by show 21 + (1 + (j 3).val) = 22; rw [last_zero])
theorem v8_at : val_main_v8 (F := Ideal) x0 j = cell4 x0 j 24 := by
  rw [val_main_v8_apply, val_main_v0_apply]
  exact cell_read x0 j _ 24 rfl rfl rfl (by show 21 + (3 + (j 3).val) = 24; rw [last_zero])
theorem v12_at : val_main_v12 (F := Ideal) x0 j = cell4 x0 j 21 := v2_at x0 j
theorem v13_at : val_main_v13 (F := Ideal) x0 j = cell4 x0 j 23 := v3_at x0 j
theorem v17_at : val_main_v17 (F := Ideal) x0 j = cell4 x0 j 22 := v7_at x0 j
theorem v18_at : val_main_v18 (F := Ideal) x0 j = cell4 x0 j 24 := v8_at x0 j

/-! ### The target box: channels 21 to 24 of the target -/

theorem v22_at : val_main_v22 (F := Ideal) x1 j = cell4 x1 j 21 := by
  rw [val_main_v22_apply, val_main_v1_apply]
  exact cell_read x1 j _ 21 rfl rfl rfl (by show 21 + (j 3).val = 21; rw [last_zero])
theorem v23_at : val_main_v23 (F := Ideal) x1 j = cell4 x1 j 23 := by
  rw [val_main_v23_apply, val_main_v1_apply]
  exact cell_read x1 j _ 23 rfl rfl rfl (by show 21 + (2 + (j 3).val) = 23; rw [last_zero])
theorem v27_at : val_main_v27 (F := Ideal) x1 j = cell4 x1 j 22 := by
  rw [val_main_v27_apply, val_main_v1_apply]
  exact cell_read x1 j _ 22 rfl rfl rfl (by show 21 + (1 + (j 3).val) = 22; rw [last_zero])
theorem v28_at : val_main_v28 (F := Ideal) x1 j = cell4 x1 j 24 := by
  rw [val_main_v28_apply, val_main_v1_apply]
  exact cell_read x1 j _ 24 rfl rfl rfl (by show 21 + (3 + (j 3).val) = 24; rw [last_zero])
theorem v32_at : val_main_v32 (F := Ideal) x1 j = cell4 x1 j 21 := v22_at x1 j
theorem v33_at : val_main_v33 (F := Ideal) x1 j = cell4 x1 j 23 := v23_at x1 j
theorem v37_at : val_main_v37 (F := Ideal) x1 j = cell4 x1 j 22 := v27_at x1 j
theorem v38_at : val_main_v38 (F := Ideal) x1 j = cell4 x1 j 24 := v28_at x1 j

/-! ### The broadcast literal two -/

theorem v4_at : val_main_v4 (F := Ideal) j = two := by
  rw [val_main_v4_apply, val_main_cst_apply]; rfl
theorem v9_at : val_main_v9 (F := Ideal) j = two := v4_at j
theorem v14_at : val_main_v14 (F := Ideal) j = two := v4_at j
theorem v19_at : val_main_v19 (F := Ideal) j = two := v4_at j
theorem v24_at : val_main_v24 (F := Ideal) j = two := v4_at j
theorem v29_at : val_main_v29 (F := Ideal) j = two := v4_at j
theorem v34_at : val_main_v34 (F := Ideal) j = two := v4_at j
theorem v39_at : val_main_v39 (F := Ideal) j = two := v4_at j

/-! ### The edges of the two boxes: centre minus, and plus, half the extent -/

theorem v6_at : val_main_v6 (F := Ideal) x0 j = lo (cell4 x0 j 21) (cell4 x0 j 23) := by
  rw [val_main_v6_apply, val_main_v5_apply, v2_at, v3_at, v4_at, Ideal.subf_def, Ideal.hostDivf_def, div_two]; rfl
theorem v11_at : val_main_v11 (F := Ideal) x0 j = lo (cell4 x0 j 22) (cell4 x0 j 24) := by
  rw [val_main_v11_apply, val_main_v10_apply, v7_at, v8_at, v9_at, Ideal.subf_def, Ideal.hostDivf_def, div_two]; rfl
theorem v16_at : val_main_v16 (F := Ideal) x0 j = hi (cell4 x0 j 21) (cell4 x0 j 23) := by
  rw [val_main_v16_apply, val_main_v15_apply, v12_at, v13_at, v14_at, Ideal.addf_def, Ideal.hostDivf_def, div_two]; rfl
theorem v21_at : val_main_v21 (F := Ideal) x0 j = hi (cell4 x0 j 22) (cell4 x0 j 24) := by
  rw [val_main_v21_apply, val_main_v20_apply, v17_at, v18_at, v19_at, Ideal.addf_def, Ideal.hostDivf_def, div_two]; rfl
theorem v26_at : val_main_v26 (F := Ideal) x1 j = lo (cell4 x1 j 21) (cell4 x1 j 23) := by
  rw [val_main_v26_apply, val_main_v25_apply, v22_at, v23_at, v24_at, Ideal.subf_def, Ideal.hostDivf_def, div_two]; rfl
theorem v31_at : val_main_v31 (F := Ideal) x1 j = lo (cell4 x1 j 22) (cell4 x1 j 24) := by
  rw [val_main_v31_apply, val_main_v30_apply, v27_at, v28_at, v29_at, Ideal.subf_def, Ideal.hostDivf_def, div_two]; rfl
theorem v36_at : val_main_v36 (F := Ideal) x1 j = hi (cell4 x1 j 21) (cell4 x1 j 23) := by
  rw [val_main_v36_apply, val_main_v35_apply, v32_at, v33_at, v34_at, Ideal.addf_def, Ideal.hostDivf_def, div_two]; rfl
theorem v41_at : val_main_v41 (F := Ideal) x1 j = hi (cell4 x1 j 22) (cell4 x1 j 24) := by
  rw [val_main_v41_apply, val_main_v40_apply, v37_at, v38_at, v39_at, Ideal.addf_def, Ideal.hostDivf_def, div_two]; rfl

/-! ### Clipping at zero: the larger of the converted integer zero and the operand -/

theorem call0_at : val_main_call0_v1 (F := Ideal) j = zero := by
  rw [val_main_call0_v1_apply, val_main_call0_v0_apply, val_main_c_apply]; exact sitofp_zero
theorem call1_at : val_main_call1_v1 (F := Ideal) j = zero := call0_at j

theorem v47_at : val_main_v47 (F := Ideal) x0 x1 j = max (val_main_v46 (F := Ideal) x0 x1 j) zero := by
  rw [val_main_v47_apply, call0_at, Ideal.maximumf_def, max_comm]
theorem v49_at : val_main_v49 (F := Ideal) x0 x1 j = max (val_main_v48 (F := Ideal) x0 x1 j) zero := by
  rw [val_main_v49_apply, call1_at, Ideal.maximumf_def, max_comm]

/-! ### The first overlap ratio -/

theorem v50_at : val_main_v50 (F := Ideal) x0 x1 j
    = inter (cell4 x0 j 21) (cell4 x0 j 22) (cell4 x0 j 23) (cell4 x0 j 24)
        (cell4 x1 j 21) (cell4 x1 j 22) (cell4 x1 j 23) (cell4 x1 j 24) := by
  rw [val_main_v50_apply, v47_at, v49_at, val_main_v46_apply, val_main_v48_apply, val_main_v44_apply,
    val_main_v42_apply, val_main_v45_apply, val_main_v43_apply, v6_at, v26_at, v16_at, v36_at, v11_at, v31_at,
    v21_at, v41_at]
  rfl

theorem v54_at : val_main_v54 (F := Ideal) x0 j
    = area (cell4 x0 j 21) (cell4 x0 j 22) (cell4 x0 j 23) (cell4 x0 j 24) := by
  rw [val_main_v54_apply, val_main_v53_apply, val_main_v51_apply, val_main_v52_apply, v16_at, v6_at, v21_at, v11_at]
  rfl
theorem v58_at : val_main_v58 (F := Ideal) x1 j
    = area (cell4 x1 j 21) (cell4 x1 j 22) (cell4 x1 j 23) (cell4 x1 j 24) := by
  rw [val_main_v58_apply, val_main_v57_apply, val_main_v55_apply, val_main_v56_apply, v36_at, v26_at, v41_at, v31_at]
  rfl

theorem v61_at : val_main_v61 (F := Ideal) j = eps := by
  rw [val_main_v61_apply, val_main_cst_8_apply]; rfl

theorem v63_at : val_main_v63 (F := Ideal) x0 x1 j = iouFirst (cell4 x0 j) (cell4 x1 j) := by
  rw [val_main_v63_apply, val_main_v62_apply, val_main_v60_apply, val_main_v59_apply, v50_at, v54_at, v58_at, v61_at]
  rfl

/-! ### The second predicted box: channels 26 to 29 of the prediction -/

theorem v66_at : val_main_v66 (F := Ideal) x0 j = cell4 x0 j 26 := by
  rw [val_main_v66_apply, val_main_v64_apply]
  exact cell_read x0 j _ 26 rfl rfl rfl (by show 26 + (j 3).val = 26; rw [last_zero])
theorem v67_at : val_main_v67 (F := Ideal) x0 j = cell4 x0 j 28 := by
  rw [val_main_v67_apply, val_main_v64_apply]
  exact cell_read x0 j _ 28 rfl rfl rfl (by show 26 + (2 + (j 3).val) = 28; rw [last_zero])
theorem v71_at : val_main_v71 (F := Ideal) x0 j = cell4 x0 j 27 := by
  rw [val_main_v71_apply, val_main_v64_apply]
  exact cell_read x0 j _ 27 rfl rfl rfl (by show 26 + (1 + (j 3).val) = 27; rw [last_zero])
theorem v72_at : val_main_v72 (F := Ideal) x0 j = cell4 x0 j 29 := by
  rw [val_main_v72_apply, val_main_v64_apply]
  exact cell_read x0 j _ 29 rfl rfl rfl (by show 26 + (3 + (j 3).val) = 29; rw [last_zero])
theorem v76_at : val_main_v76 (F := Ideal) x0 j = cell4 x0 j 26 := v66_at x0 j
theorem v77_at : val_main_v77 (F := Ideal) x0 j = cell4 x0 j 28 := v67_at x0 j
theorem v81_at : val_main_v81 (F := Ideal) x0 j = cell4 x0 j 27 := v71_at x0 j
theorem v82_at : val_main_v82 (F := Ideal) x0 j = cell4 x0 j 29 := v72_at x0 j

theorem v68_at : val_main_v68 (F := Ideal) j = two := v4_at j
theorem v73_at : val_main_v73 (F := Ideal) j = two := v4_at j
theorem v78_at : val_main_v78 (F := Ideal) j = two := v4_at j
theorem v83_at : val_main_v83 (F := Ideal) j = two := v4_at j

theorem v70_at : val_main_v70 (F := Ideal) x0 j = lo (cell4 x0 j 26) (cell4 x0 j 28) := by
  rw [val_main_v70_apply, val_main_v69_apply, v66_at, v67_at, v68_at, Ideal.subf_def, Ideal.hostDivf_def, div_two]; rfl
theorem v75_at : val_main_v75 (F := Ideal) x0 j = lo (cell4 x0 j 27) (cell4 x0 j 29) := by
  rw [val_main_v75_apply, val_main_v74_apply, v71_at, v72_at, v73_at, Ideal.subf_def, Ideal.hostDivf_def, div_two]; rfl
theorem v80_at : val_main_v80 (F := Ideal) x0 j = hi (cell4 x0 j 26) (cell4 x0 j 28) := by
  rw [val_main_v80_apply, val_main_v79_apply, v76_at, v77_at, v78_at, Ideal.addf_def, Ideal.hostDivf_def, div_two]; rfl
theorem v85_at : val_main_v85 (F := Ideal) x0 j = hi (cell4 x0 j 27) (cell4 x0 j 29) := by
  rw [val_main_v85_apply, val_main_v84_apply, v81_at, v82_at, v83_at, Ideal.addf_def, Ideal.hostDivf_def, div_two]; rfl

/-- The target box is cut out a second time, by the same operations: its edges are the same terms. -/
theorem v90_at : val_main_v90 (F := Ideal) x1 j = lo (cell4 x1 j 21) (cell4 x1 j 23) := v26_at x1 j
theorem v95_at : val_main_v95 (F := Ideal) x1 j = lo (cell4 x1 j 22) (cell4 x1 j 24) := v31_at x1 j
theorem v100_at : val_main_v100 (F := Ideal) x1 j = hi (cell4 x1 j 21) (cell4 x1 j 23) := v36_at x1 j
theorem v105_at : val_main_v105 (F := Ideal) x1 j = hi (cell4 x1 j 22) (cell4 x1 j 24) := v41_at x1 j

theorem call2_at : val_main_call2_v1 (F := Ideal) j = zero := call0_at j
theorem call3_at : val_main_call3_v1 (F := Ideal) j = zero := call0_at j

theorem v111_at : val_main_v111 (F := Ideal) x0 x1 j = max (val_main_v110 (F := Ideal) x0 x1 j) zero := by
  rw [val_main_v111_apply, call2_at, Ideal.maximumf_def, max_comm]
theorem v113_at : val_main_v113 (F := Ideal) x0 x1 j = max (val_main_v112 (F := Ideal) x0 x1 j) zero := by
  rw [val_main_v113_apply, call3_at, Ideal.maximumf_def, max_comm]

/-! ### The second overlap ratio -/

theorem v114_at : val_main_v114 (F := Ideal) x0 x1 j
    = inter (cell4 x0 j 26) (cell4 x0 j 27) (cell4 x0 j 28) (cell4 x0 j 29)
        (cell4 x1 j 21) (cell4 x1 j 22) (cell4 x1 j 23) (cell4 x1 j 24) := by
  rw [val_main_v114_apply, v111_at, v113_at, val_main_v110_apply, val_main_v112_apply, val_main_v108_apply,
    val_main_v106_apply, val_main_v109_apply, val_main_v107_apply, v70_at, v90_at, v80_at, v100_at, v75_at, v95_at,
    v85_at, v105_at]
  rfl

theorem v118_at : val_main_v118 (F := Ideal) x0 j
    = area (cell4 x0 j 26) (cell4 x0 j 27) (cell4 x0 j 28) (cell4 x0 j 29) := by
  rw [val_main_v118_apply, val_main_v117_apply, val_main_v115_apply, val_main_v116_apply, v80_at, v70_at, v85_at,
    v75_at]
  rfl
theorem v122_at : val_main_v122 (F := Ideal) x1 j
    = area (cell4 x1 j 21) (cell4 x1 j 22) (cell4 x1 j 23) (cell4 x1 j 24) := by
  rw [val_main_v122_apply, val_main_v121_apply, val_main_v119_apply, val_main_v120_apply, v100_at, v90_at, v105_at,
    v95_at]
  rfl

theorem v125_at : val_main_v125 (F := Ideal) j = eps := v61_at j

theorem v127_at : val_main_v127 (F := Ideal) x0 x1 j = iouSecond (cell4 x0 j) (cell4 x1 j) := by
  rw [val_main_v127_apply, val_main_v126_apply, val_main_v124_apply, val_main_v123_apply, v114_at, v118_at, v122_at,
    v125_at]
  rfl

/-! ### The indicator of the responsible box, and the confidences -/

theorem v129_at : val_main_v129 (F := Ideal) x0 x1 j = best (cell4 x0 j) (cell4 x1 j) := by
  rw [val_main_v129_apply, val_main_v128_apply, v127_at, v63_at]
  rfl

theorem v130_at : val_main_v130 (F := Ideal) x1 j = cell4 x1 j 20 := by
  rw [val_main_v130_apply]
  exact cell_read x1 j _ 20 rfl rfl rfl (by show 20 + (j 3).val = 20; rw [last_zero])
theorem v133_at : val_main_v133 (F := Ideal) x0 j = cell4 x0 j 20 := by
  rw [val_main_v133_apply]
  exact cell_read x0 j _ 20 rfl rfl rfl (by show 20 + (j 3).val = 20; rw [last_zero])
theorem v135_at : val_main_v135 (F := Ideal) x0 j = cell4 x0 j 29 := by
  rw [val_main_v135_apply]
  exact cell_read x0 j _ 29 rfl rfl rfl (by show 29 + (j 3).val = 29; rw [last_zero])
theorem v139_at : val_main_v139 (F := Ideal) x1 j = cell4 x1 j 20 := v130_at x1 j
theorem v146_at : val_main_v146 (F := Ideal) x0 j = cell4 x0 j 20 := v133_at x0 j
theorem v148_at : val_main_v148 (F := Ideal) x1 j = cell4 x1 j 20 := v130_at x1 j
theorem v153_at : val_main_v153 (F := Ideal) x0 j = cell4 x0 j 29 := v135_at x0 j
theorem v155_at : val_main_v155 (F := Ideal) x1 j = cell4 x1 j 20 := v130_at x1 j

theorem v131_at : val_main_v131 (F := Ideal) j = one := by
  rw [val_main_v131_apply, val_main_cst_20_apply]; rfl
theorem v144_at : val_main_v144 (F := Ideal) j = one := v131_at j

/-! ### The objectness term and the two no-object terms -/

theorem v142_at : val_main_v142 (F := Ideal) x0 x1 j = cellObj (cell4 x0 j) (cell4 x1 j) := by
  rw [val_main_v142_apply, val_main_v141_apply, val_main_v138_apply, val_main_v140_apply, val_main_v137_apply,
    val_main_v134_apply, val_main_v136_apply, val_main_v132_apply, v129_at, v130_at, v131_at, v133_at, v135_at,
    v139_at]
  rfl

theorem v145_at : val_main_v145 (F := Ideal) x1 j = one - cell4 x1 j 20 := by
  rw [val_main_v145_apply, v144_at, v130_at]; rfl

theorem v151_at : val_main_v151 (F := Ideal) x0 x1 j = cellNoFirst (cell4 x0 j) (cell4 x1 j) := by
  rw [val_main_v151_apply, val_main_v150_apply, val_main_v147_apply, val_main_v149_apply, v145_at, v146_at, v148_at]
  rfl

theorem v158_at : val_main_v158 (F := Ideal) x0 x1 j = cellNoSecond (cell4 x0 j) (cell4 x1 j) := by
  rw [val_main_v158_apply, val_main_v157_apply, val_main_v154_apply, val_main_v156_apply, v145_at, v153_at, v155_at]
  rfl

/-! ### The class term: at each of the twenty class channels, the objectness is read at the cell -/

theorem v161_at (q : S65536x7x7x20.Idx) (h : (q 3).val < 30) :
    val_main_v161 (F := Ideal) x0 q = cell4 x0 q ⟨(q 3).val, h⟩ := by
  rw [val_main_v161_apply]
  exact cell_read x0 q _ _ rfl rfl rfl rfl
theorem v164_at (q : S65536x7x7x20.Idx) (h : (q 3).val < 30) :
    val_main_v164 (F := Ideal) x1 q = cell4 x1 q ⟨(q 3).val, h⟩ := by
  rw [val_main_v164_apply]
  exact cell_read x1 q _ _ rfl rfl rfl rfl

theorem v168_at (q : S65536x7x7x20.Idx) :
    val_main_v168 (F := Ideal) x0 x1 q = cellCls (cell4 x0 q) (cell4 x1 q) (q 3) := by
  have h : (q 3).val < 30 := Nat.lt_of_lt_of_le (q 3).isLt (by decide)
  rw [val_main_v168_apply, val_main_v167_apply, val_main_v163_apply, val_main_v166_apply, val_main_v162_apply,
    val_main_v165_apply, v161_at x0 q h, v164_at x1 q h, v130_at]
  rfl

/-! ## The whole program -/

theorem ref_value (x0 x1 : (⟨S65536x7x7x30, .f32⟩ : BufTy).Contents (Elt Ideal)) :
    Cert.ReferenceIdeal.Read.val_main_v174 (F := Ideal) x0 x1 = fun _ =>
      ((five * zero + (zero + ∑ j : S65536x7x7x1.Idx, cellObj (cell4 x0 j) (cell4 x1 j)))
        + half * ((zero + ∑ j : S65536x7x7x1.Idx, cellNoFirst (cell4 x0 j) (cell4 x1 j))
                  + (zero + ∑ j : S65536x7x7x1.Idx, cellNoSecond (cell4 x0 j) (cell4 x1 j))))
      + (zero + ∑ j : S65536x7x7x20.Idx, cellCls (cell4 x0 j) (cell4 x1 j) (j 3)) := by
  funext i
  rw [val_main_v174_apply, val_main_v173_apply, val_main_v171_apply, val_main_v172_apply, val_main_v170_apply,
    val_main_v160_apply, val_main_v143_apply, val_main_v152_apply, val_main_v159_apply, val_main_v169_apply]
  simp only [v142_at, v151_at, v158_at, v168_at]
  rfl

end Cert.RefCells

end
-- ==== Proof.RefWindows.lean ====
/- A table of facts, one per buffer: run from contents W, a window of the reference's @main leaves each buffer that a later
   window reads at its stage (the value its operation computes, as a function of the two argument arrays), provided the
   buffers the window reads from earlier windows hold their stages in W; the two arguments are never written.
   Each fact: the operations' results folded over the window's list, the earlier windows' stages put in, and the
   stage's definition unfolded. -/
import proofs.«111956_j13443247636702_2_alg».proof.Proof.RefOps
import proofs.«111956_j13443247636702_2_alg».proof.Proof.RefRead

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The two argument arrays as a valuation holds them. -/
abbrev argP (W : Valuation τ sig (Elt F)) : (⟨S65536x7x7x30, .f32⟩ : BufTy).Contents (Elt F) := W (Proc.devRef .tc main_arg0)
abbrev argT (W : Valuation τ sig (Elt F)) : (⟨S65536x7x7x30, .f32⟩ : BufTy).Contents (Elt F) := W (Proc.devRef .tc main_arg1)

/-! ## Window 0: from any contents -/

set_option maxHeartbeats 2000000 in
theorem w0_v47 (W : Valuation τ sig (Elt F)) :
    after ops0 W (Proc.devRef .tc main_v47) = val_main_v47 (F := F) (argP W) (argT W) := by
  after_results_simp <;> rfl
set_option maxHeartbeats 2000000 in
theorem w0_v49 (W : Valuation τ sig (Elt F)) :
    after ops0 W (Proc.devRef .tc main_v49) = val_main_v49 (F := F) (argP W) (argT W) := by
  after_results_simp <;> rfl
set_option maxHeartbeats 2000000 in
theorem w0_v16 (W : Valuation τ sig (Elt F)) :
    after ops0 W (Proc.devRef .tc main_v16) = val_main_v16 (F := F) (argP W) := by
  after_results_simp <;> rfl
set_option maxHeartbeats 2000000 in
theorem w0_v6 (W : Valuation τ sig (Elt F)) :
    after ops0 W (Proc.devRef .tc main_v6) = val_main_v6 (F := F) (argP W) := by
  after_results_simp <;> rfl
set_option maxHeartbeats 2000000 in
theorem w0_v21 (W : Valuation τ sig (Elt F)) :
    after ops0 W (Proc.devRef .tc main_v21) = val_main_v21 (F := F) (argP W) := by
  after_results_simp <;> rfl
set_option maxHeartbeats 2000000 in
theorem w0_v11 (W : Valuation τ sig (Elt F)) :
    after ops0 W (Proc.devRef .tc main_v11) = val_main_v11 (F := F) (argP W) := by
  after_results_simp <;> rfl
set_option maxHeartbeats 2000000 in
theorem w0_v36 (W : Valuation τ sig (Elt F)) :
    after ops0 W (Proc.devRef .tc main_v36) = val_main_v36 (F := F) (argT W) := by
  after_results_simp <;> rfl
set_option maxHeartbeats 2000000 in
theorem w0_v26 (W : Valuation τ sig (Elt F)) :
    after ops0 W (Proc.devRef .tc main_v26) = val_main_v26 (F := F) (argT W) := by
  after_results_simp <;> rfl
set_option maxHeartbeats 2000000 in
theorem w0_v41 (W : Valuation τ sig (Elt F)) :
    after ops0 W (Proc.devRef .tc main_v41) = val_main_v41 (F := F) (argT W) := by
  after_results_simp <;> rfl
set_option maxHeartbeats 2000000 in
theorem w0_v31 (W : Valuation τ sig (Elt F)) :
    after ops0 W (Proc.devRef .tc main_v31) = val_main_v31 (F := F) (argT W) := by
  after_results_simp <;> rfl
theorem w0_arg0 (W : Valuation τ sig (Elt F)) : after ops0 W (Proc.devRef .tc main_arg0) = argP W := by after_results_simp
theorem w0_arg1 (W : Valuation τ sig (Elt F)) : after ops0 W (Proc.devRef .tc main_arg1) = argT W := by after_results_simp

/-! ## Window 1 -/

/-- What window 1 needs of the contents it starts from: the arguments, and the stages of the buffers it or a later
    window reads from the windows before it. -/
structure In1 (W : Valuation τ sig (Elt F)) (x0 x1 : (⟨S65536x7x7x30, .f32⟩ : BufTy).Contents (Elt F)) : Prop where
  a0 : W (Proc.devRef .tc main_arg0) = x0
  a1 : W (Proc.devRef .tc main_arg1) = x1
  v47 : W (Proc.devRef .tc main_v47) = val_main_v47 (F := F) x0 x1
  v49 : W (Proc.devRef .tc main_v49) = val_main_v49 (F := F) x0 x1
  v16 : W (Proc.devRef .tc main_v16) = val_main_v16 (F := F) x0
  v6 : W (Proc.devRef .tc main_v6) = val_main_v6 (F := F) x0
  v21 : W (Proc.devRef .tc main_v21) = val_main_v21 (F := F) x0
  v11 : W (Proc.devRef .tc main_v11) = val_main_v11 (F := F) x0
  v36 : W (Proc.devRef .tc main_v36) = val_main_v36 (F := F) x1
  v26 : W (Proc.devRef .tc main_v26) = val_main_v26 (F := F) x1
  v41 : W (Proc.devRef .tc main_v41) = val_main_v41 (F := F) x1
  v31 : W (Proc.devRef .tc main_v31) = val_main_v31 (F := F) x1

theorem in1 (V : Valuation τ sig (Elt F)) : In1 (after ops0 V) (argP V) (argT V) :=
  ⟨w0_arg0 V, w0_arg1 V, w0_v47 V, w0_v49 V, w0_v16 V, w0_v6 V, w0_v21 V, w0_v11 V, w0_v36 V, w0_v26 V, w0_v41 V, w0_v31 V⟩

set_option maxHeartbeats 2000000 in
theorem w1_v65 (W : Valuation τ sig (Elt F)) (x0 x1 : (⟨S65536x7x7x30, .f32⟩ : BufTy).Contents (Elt F)) (h : In1 W x0 x1) :
    after ops1 W (Proc.devRef .tc main_v65) = val_main_v65 (F := F) x1 := by
  after_results_simp
  simp only [h.a0, h.a1, h.v47, h.v49, h.v16, h.v6, h.v21, h.v11, h.v36, h.v26, h.v41, h.v31]
  rfl

set_option maxHeartbeats 2000000 in
theorem w1_v101 (W : Valuation τ sig (Elt F)) (x0 x1 : (⟨S65536x7x7x30, .f32⟩ : BufTy).Contents (Elt F)) (h : In1 W x0 x1) :
    after ops1 W (Proc.devRef .tc main_v101) = val_main_v101 (F := F) x1 := by
  after_results_simp
  simp only [h.a0, h.a1, h.v47, h.v49, h.v16, h.v6, h.v21, h.v11, h.v36, h.v26, h.v41, h.v31]
  rfl

set_option maxHeartbeats 2000000 in
theorem w1_v70 (W : Valuation τ sig (Elt F)) (x0 x1 : (⟨S65536x7x7x30, .f32⟩ : BufTy).Contents (Elt F)) (h : In1 W x0 x1) :
    after ops1 W (Proc.devRef .tc main_v70) = val_main_v70 (F := F) x0 := by
  after_results_simp
  simp only [h.a0, h.a1, h.v47, h.v49, h.v16, h.v6, h.v21, h.v11, h.v36, h.v26, h.v41, h.v31]
  rfl

set_option maxHeartbeats 2000000 in
theorem w1_v90 (W : Valuation τ sig (Elt F)) (x0 x1 : (⟨S65536x7x7x30, .f32⟩ : BufTy).Contents (Elt F)) (h : In1 W x0 x1) :
    after ops1 W (Proc.devRef .tc main_v90) = val_main_v90 (F := F) x1 := by
  after_results_simp
  simp only [h.a0, h.a1, h.v47, h.v49, h.v16, h.v6, h.v21, h.v11, h.v36, h.v26, h.v41, h.v31]
  rfl

set_option maxHeartbeats 2000000 in
theorem w1_v75 (W : Valuation τ sig (Elt F)) (x0 x1 : (⟨S65536x7x7x30, .f32⟩ : BufTy).Contents (Elt F)) (h : In1 W x0 x1) :
    after ops1 W (Proc.devRef .tc main_v75) = val_main_v75 (F := F) x0 := by
  after_results_simp
  simp only [h.a0, h.a1, h.v47, h.v49, h.v16, h.v6, h.v21, h.v11, h.v36, h.v26, h.v41, h.v31]
  rfl

set_option maxHeartbeats 2000000 in
theorem w1_v95 (W : Valuation τ sig (Elt F)) (x0 x1 : (⟨S65536x7x7x30, .f32⟩ : BufTy).Contents (Elt F)) (h : In1 W x0 x1) :
    after ops1 W (Proc.devRef .tc main_v95) = val_main_v95 (F := F) x1 := by
  after_results_simp
  simp only [h.a0, h.a1, h.v47, h.v49, h.v16, h.v6, h.v21, h.v11, h.v36, h.v26, h.v41, h.v31]
  rfl

set_option maxHeartbeats 2000000 in
theorem w1_v80 (W : Valuation τ sig (Elt F)) (x0 x1 : (⟨S65536x7x7x30, .f32⟩ : BufTy).Contents (Elt F)) (h : In1 W x0 x1) :
    after ops1 W (Proc.devRef .tc main_v80) = val_main_v80 (F := F) x0 := by
  after_results_simp
  simp only [h.a0, h.a1, h.v47, h.v49, h.v16, h.v6, h.v21, h.v11, h.v36, h.v26, h.v41, h.v31]
  rfl

set_option maxHeartbeats 2000000 in
theorem w1_v100 (W : Valuation τ sig (Elt F)) (x0 x1 : (⟨S65536x7x7x30, .f32⟩ : BufTy).Contents (Elt F)) (h : In1 W x0 x1) :
    after ops1 W (Proc.devRef .tc main_v100) = val_main_v100 (F := F) x1 := by
  after_results_simp
  simp only [h.a0, h.a1, h.v47, h.v49, h.v16, h.v6, h.v21, h.v11, h.v36, h.v26, h.v41, h.v31]
  rfl

set_option maxHeartbeats 2000000 in
theorem w1_v85 (W : Valuation τ sig (Elt F)) (x0 x1 : (⟨S65536x7x7x30, .f32⟩ : BufTy).Contents (Elt F)) (h : In1 W x0 x1) :
    after ops1 W (Proc.devRef .tc main_v85) = val_main_v85 (F := F) x0 := by
  after_results_simp
  simp only [h.a0, h.a1, h.v47, h.v49, h.v16, h.v6, h.v21, h.v11, h.v36, h.v26, h.v41, h.v31]
  rfl

set_option maxHeartbeats 2000000 in
theorem w1_v63 (W : Valuation τ sig (Elt F)) (x0 x1 : (⟨S65536x7x7x30, .f32⟩ : BufTy).Contents (Elt F)) (h : In1 W x0 x1) :
    after ops1 W (Proc.devRef .tc main_v63) = val_main_v63 (F := F) x0 x1 := by
  after_results_simp
  simp only [h.a0, h.a1, h.v47, h.v49, h.v16, h.v6, h.v21, h.v11, h.v36, h.v26, h.v41, h.v31]
  rfl

theorem w1_arg0 (W : Valuation τ sig (Elt F)) (x0 x1 : (⟨S65536x7x7x30, .f32⟩ : BufTy).Contents (Elt F)) (h : In1 W x0 x1) : after ops1 W (Proc.devRef .tc main_arg0) = x0 := by
  after_results_simp; exact h.a0
theorem w1_arg1 (W : Valuation τ sig (Elt F)) (x0 x1 : (⟨S65536x7x7x30, .f32⟩ : BufTy).Contents (Elt F)) (h : In1 W x0 x1) : after ops1 W (Proc.devRef .tc main_arg1) = x1 := by
  after_results_simp; exact h.a1

/-! ## Window 2 -/

/-- What window 2 needs of the contents it starts from: the arguments, and the stages of the buffers it or a later
    window reads from the windows before it. -/
structure In2 (W : Valuation τ sig (Elt F)) (x0 x1 : (⟨S65536x7x7x30, .f32⟩ : BufTy).Contents (Elt F)) : Prop where
  a0 : W (Proc.devRef .tc main_arg0) = x0
  a1 : W (Proc.devRef .tc main_arg1) = x1
  v65 : W (Proc.devRef .tc main_v65) = val_main_v65 (F := F) x1
  v101 : W (Proc.devRef .tc main_v101) = val_main_v101 (F := F) x1
  v70 : W (Proc.devRef .tc main_v70) = val_main_v70 (F := F) x0
  v90 : W (Proc.devRef .tc main_v90) = val_main_v90 (F := F) x1
  v75 : W (Proc.devRef .tc main_v75) = val_main_v75 (F := F) x0
  v95 : W (Proc.devRef .tc main_v95) = val_main_v95 (F := F) x1
  v80 : W (Proc.devRef .tc main_v80) = val_main_v80 (F := F) x0
  v100 : W (Proc.devRef .tc main_v100) = val_main_v100 (F := F) x1
  v85 : W (Proc.devRef .tc main_v85) = val_main_v85 (F := F) x0
  v63 : W (Proc.devRef .tc main_v63) = val_main_v63 (F := F) x0 x1

theorem in2 (W : Valuation τ sig (Elt F)) (x0 x1 : (⟨S65536x7x7x30, .f32⟩ : BufTy).Contents (Elt F)) (h : In1 W x0 x1) : In2 (after ops1 W) x0 x1 :=
  ⟨w1_arg0 W x0 x1 h, w1_arg1 W x0 x1 h, w1_v65 W x0 x1 h, w1_v101 W x0 x1 h, w1_v70 W x0 x1 h, w1_v90 W x0 x1 h, w1_v75 W x0 x1 h, w1_v95 W x0 x1 h, w1_v80 W x0 x1 h, w1_v100 W x0 x1 h, w1_v85 W x0 x1 h, w1_v63 W x0 x1 h⟩

set_option maxHeartbeats 2000000 in
theorem w2_v145 (W : Valuation τ sig (Elt F)) (x0 x1 : (⟨S65536x7x7x30, .f32⟩ : BufTy).Contents (Elt F)) (h : In2 W x0 x1) :
    after ops2 W (Proc.devRef .tc main_v145) = val_main_v145 (F := F) x1 := by
  after_results_simp
  simp only [h.a0, h.a1, h.v65, h.v101, h.v70, h.v90, h.v75, h.v95, h.v80, h.v100, h.v85, h.v63]
  rfl

set_option maxHeartbeats 2000000 in
theorem w2_v153 (W : Valuation τ sig (Elt F)) (x0 x1 : (⟨S65536x7x7x30, .f32⟩ : BufTy).Contents (Elt F)) (h : In2 W x0 x1) :
    after ops2 W (Proc.devRef .tc main_v153) = val_main_v153 (F := F) x0 := by
  after_results_simp
  simp only [h.a0, h.a1, h.v65, h.v101, h.v70, h.v90, h.v75, h.v95, h.v80, h.v100, h.v85, h.v63]
  rfl

set_option maxHeartbeats 2000000 in
theorem w2_v152 (W : Valuation τ sig (Elt F)) (x0 x1 : (⟨S65536x7x7x30, .f32⟩ : BufTy).Contents (Elt F)) (h : In2 W x0 x1) :
    after ops2 W (Proc.devRef .tc main_v152) = val_main_v152 (F := F) x0 x1 := by
  after_results_simp
  simp only [h.a0, h.a1, h.v65, h.v101, h.v70, h.v90, h.v75, h.v95, h.v80, h.v100, h.v85, h.v63]
  rfl

set_option maxHeartbeats 2000000 in
theorem w2_v130 (W : Valuation τ sig (Elt F)) (x0 x1 : (⟨S65536x7x7x30, .f32⟩ : BufTy).Contents (Elt F)) (h : In2 W x0 x1) :
    after ops2 W (Proc.devRef .tc main_v130) = val_main_v130 (F := F) x1 := by
  after_results_simp
  simp only [h.a0, h.a1, h.v65, h.v101, h.v70, h.v90, h.v75, h.v95, h.v80, h.v100, h.v85, h.v63]
  rfl

set_option maxHeartbeats 2000000 in
theorem w2_v143 (W : Valuation τ sig (Elt F)) (x0 x1 : (⟨S65536x7x7x30, .f32⟩ : BufTy).Contents (Elt F)) (h : In2 W x0 x1) :
    after ops2 W (Proc.devRef .tc main_v143) = val_main_v143 (F := F) x0 x1 := by
  after_results_simp
  simp only [h.a0, h.a1, h.v65, h.v101, h.v70, h.v90, h.v75, h.v95, h.v80, h.v100, h.v85, h.v63]
  rfl

theorem w2_arg0 (W : Valuation τ sig (Elt F)) (x0 x1 : (⟨S65536x7x7x30, .f32⟩ : BufTy).Contents (Elt F)) (h : In2 W x0 x1) : after ops2 W (Proc.devRef .tc main_arg0) = x0 := by
  after_results_simp; exact h.a0
theorem w2_arg1 (W : Valuation τ sig (Elt F)) (x0 x1 : (⟨S65536x7x7x30, .f32⟩ : BufTy).Contents (Elt F)) (h : In2 W x0 x1) : after ops2 W (Proc.devRef .tc main_arg1) = x1 := by
  after_results_simp; exact h.a1

/-! ## Window 3 -/

/-- What window 3 needs of the contents it starts from: the arguments, and the stages of the buffers it or a later
    window reads from the windows before it. -/
structure In3 (W : Valuation τ sig (Elt F)) (x0 x1 : (⟨S65536x7x7x30, .f32⟩ : BufTy).Contents (Elt F)) : Prop where
  a0 : W (Proc.devRef .tc main_arg0) = x0
  a1 : W (Proc.devRef .tc main_arg1) = x1
  v145 : W (Proc.devRef .tc main_v145) = val_main_v145 (F := F) x1
  v153 : W (Proc.devRef .tc main_v153) = val_main_v153 (F := F) x0
  v152 : W (Proc.devRef .tc main_v152) = val_main_v152 (F := F) x0 x1
  v130 : W (Proc.devRef .tc main_v130) = val_main_v130 (F := F) x1
  v143 : W (Proc.devRef .tc main_v143) = val_main_v143 (F := F) x0 x1

theorem in3 (W : Valuation τ sig (Elt F)) (x0 x1 : (⟨S65536x7x7x30, .f32⟩ : BufTy).Contents (Elt F)) (h : In2 W x0 x1) : In3 (after ops2 W) x0 x1 :=
  ⟨w2_arg0 W x0 x1 h, w2_arg1 W x0 x1 h, w2_v145 W x0 x1 h, w2_v153 W x0 x1 h, w2_v152 W x0 x1 h, w2_v130 W x0 x1 h, w2_v143 W x0 x1 h⟩

set_option maxHeartbeats 2000000 in
theorem w3_v174 (W : Valuation τ sig (Elt F)) (x0 x1 : (⟨S65536x7x7x30, .f32⟩ : BufTy).Contents (Elt F)) (h : In3 W x0 x1) :
    after ops3 W (Proc.devRef .tc main_v174) = val_main_v174 (F := F) x0 x1 := by
  after_results_simp
  simp only [h.a0, h.a1, h.v145, h.v153, h.v152, h.v130, h.v143]
  rfl

theorem w3_arg0 (W : Valuation τ sig (Elt F)) (x0 x1 : (⟨S65536x7x7x30, .f32⟩ : BufTy).Contents (Elt F)) (h : In3 W x0 x1) : after ops3 W (Proc.devRef .tc main_arg0) = x0 := by
  after_results_simp; exact h.a0
theorem w3_arg1 (W : Valuation τ sig (Elt F)) (x0 x1 : (⟨S65536x7x7x30, .f32⟩ : BufTy).Contents (Elt F)) (h : In3 W x0 x1) : after ops3 W (Proc.devRef .tc main_arg1) = x1 := by
  after_results_simp; exact h.a1

end Cert.ReferenceIdeal.RunValue

end
-- ==== Proof.RefRun.lean ====
/-
  The reference program's run.

  @main is printed in four windows of host operations. Run from any contents, a window leaves each buffer that a later
  window reads at its stage — the value its operation computes, as a function of the two argument arrays — provided the
  buffers it reads from earlier windows already hold theirs; those facts are tabulated buffer by buffer in the module
  imported here. Running two stretches of operations one after the other is running their concatenation, so the four
  windows in order leave the result buffer at the last stage of the arguments the run started with and the arguments
  themselves untouched. The program is the sequence of its four windows, every operation touches TensorCore buffers
  only and allocates nothing, and the signature scopes nothing: so every weakly fair execution of @main terminates, in
  a state whose result buffer holds that last stage.
-/
import proofs.«111956_j13443247636702_2_alg».proof.Proof.RefWindows

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two stretches of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's operations, all four windows in order. -/
abbrev opsAll : List (HloOp τ sig (Elt F)) := ops0 ++ (ops1 ++ (ops2 ++ ops3))

/-- After the first three windows, run from V, the buffers the last window reads hold their stages of V's arguments. -/
theorem in3_all (V : Valuation τ sig (Elt F)) :
    In3 (after ops2 (after ops1 (after ops0 V))) (argP V) (argT V) :=
  in3 (after ops1 (after ops0 V)) (argP V) (argT V) (in2 (after ops0 V) (argP V) (argT V) (in1 V))

/-- From any contents V the result buffer ends at the last stage of the arguments V holds, -/
theorem result (V : Valuation τ sig (Elt F)) :
    after opsAll V (Proc.devRef .tc main_v174) = val_main_v174 (F := F) (argP V) (argT V) := by
  show after (ops0 ++ (ops1 ++ (ops2 ++ ops3))) V _ = _
  rw [after_append, after_append, after_append]
  exact w3_v174 _ _ _ (in3_all V)

/-- and the arguments keep their contents. -/
theorem result_arg0 (V : Valuation τ sig (Elt F)) : after opsAll V (Proc.devRef .tc main_arg0) = argP V := by
  show after (ops0 ++ (ops1 ++ (ops2 ++ ops3))) V _ = _
  rw [after_append, after_append, after_append]
  exact w3_arg0 _ _ _ (in3_all V)

theorem result_arg1 (V : Valuation τ sig (Elt F)) : after opsAll V (Proc.devRef .tc main_arg1) = argT V := by
  show after (ops0 ++ (ops1 ++ (ops2 ++ ops3))) V _ = _
  rw [after_append, after_append, after_append]
  exact w3_arg1 _ _ _ (in3_all V)

/-- @main is its four windows run one after the other. -/
theorem main_eq (c : Dev nD) : main (F := F) c = seq opsAll := by
  show _ = seq (ops0 ++ (ops1 ++ (ops2 ++ ops3)))
  rw [seq_append, seq_append, seq_append, ← main_part0_eq c, ← main_part1_eq c, ← main_part2_eq c, ← main_part3_eq c]
  rfl

/-- Every operation touches TensorCore buffers only, -/
theorem opsAll_sub : (opsAll : List (HloOp τ sig (Elt F))).Forall fun op => op.bufs ⊆ tcRefs τ sig := by
  rw [List.forall_iff_forall_mem]
  intro op h
  simp only [opsAll, List.mem_append] at h
  rcases h with h | h | h | h
  · exact List.forall_iff_forall_mem.mp ops0_sub op h
  · exact List.forall_iff_forall_mem.mp ops1_sub op h
  · exact List.forall_iff_forall_mem.mp ops2_sub op h
  · exact List.forall_iff_forall_mem.mp ops3_sub op h

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor

/-- and allocates nothing. -/
theorem opsAll_fresh : ∀ op ∈ (opsAll : List (HloOp τ sig (Elt F))), op.fresh = ∅ := by
  intro op h
  simp only [opsAll, List.mem_append] at h
  rcases h with h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h

/-- On every device, from any memory with zero counters: every weakly fair execution of @main terminates with the
    result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v174)
          = val_main_v174 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v174).trans (result _), (h c main_arg0).trans (result_arg0 _),
      (h c main_arg1).trans (result_arg1 _)⟩)
    (run_seq scopedRefs_eq scopedSems_eq defs main (fun _ => opsAll) main_eq (fun _ => opsAll_sub) m ρ
      (fun _ => opsAll_fresh))

end Cert.ReferenceIdeal.RunValue

end
-- ==== Proof.lean ====
/-
  The certificate of a detection-loss kernel against its jnp reference, over the extended reals.

  Both programs compute, for 65536 × 7 × 7 cells of thirty predicted and thirty target values, the sum over the cells of
  four squared differences: an objectness term built from the confidence of whichever of two predicted boxes overlaps
  the target box more, two no-object terms weighted by one half, and twenty class terms. The reference takes four
  whole-array sums and combines them; the kernel flattens the cells to 3211264 rows, walks them in 784 blocks of 4096
  rows on a 2 × 392 grid, adds each block's combined loss into an accumulator, writes the accumulator out at the end of
  each of the two runs of 392 blocks, and lets the host add the two.

  The two spell three things differently — a box's half extent as a product with one half or a quotient by two, the
  clipping at zero with the zero on either side of the maximum, the overlap indicator as a signed or an unsigned
  conversion of the compare's bit — and these are equal on every extended real. The sums differ only in grouping, and
  one half is a non-negative real, so it distributes over sums of extended reals; no step needs the inputs to be finite.
  Both runs therefore end at the same value: the loss of all rows of the flattened arguments.

  The frames of the two kernel programs are the generated ones; the reference's is its run with the result dropped.
  Nothing was rewritten by the idealization, so there is nothing to preserve.
-/
import proofs.«111956_j13443247636702_2_alg».proof.Defs
import proofs.«111956_j13443247636702_2_alg».proof.Proof.Gen.Kernel
import proofs.«111956_j13443247636702_2_alg».proof.Proof.Gen.Kernel.Skeleton
import proofs.«111956_j13443247636702_2_alg».proof.Proof.Gen.Kernel.Launch
import proofs.«111956_j13443247636702_2_alg».proof.Proof.Gen.Kernel.Points
import proofs.«111956_j13443247636702_2_alg».proof.Proof.Gen.Kernel.Frame
import proofs.«111956_j13443247636702_2_alg».proof.Proof.Gen.KernelIdeal
import proofs.«111956_j13443247636702_2_alg».proof.Proof.Gen.KernelIdeal.Skeleton
import proofs.«111956_j13443247636702_2_alg».proof.Proof.Gen.KernelIdeal.Launch
import proofs.«111956_j13443247636702_2_alg».proof.Proof.Gen.KernelIdeal.Points
import proofs.«111956_j13443247636702_2_alg».proof.Proof.Gen.KernelIdeal.Frame
import proofs.«111956_j13443247636702_2_alg».proof.Proof.Gen.ReferenceIdeal
import proofs.«111956_j13443247636702_2_alg».proof.Proof.Gen.Pre_finite_inputs
import proofs.«111956_j13443247636702_2_alg».proof.Proof.KernelCells
import proofs.«111956_j13443247636702_2_alg».proof.Proof.KernelTotal
import proofs.«111956_j13443247636702_2_alg».proof.Proof.RefCells
import proofs.«111956_j13443247636702_2_alg».proof.Proof.RefRun
import proofs.«111956_j13443247636702_2_alg».proof.Proof.Regroup
import Idealize.ShloMosaic.Adequacy
import Idealize.ShloMosaic.Init

noncomputable section

namespace Cert.Proof

open Idealize.ShloMosaic Idealize.ShloMosaic.TcCoe Idealize.SL.Sem Cert.RowLoss

/-- The value both runs end at: the loss of all rows of the two flattened argument arrays. -/
abbrev lossOf (x0 x1 : (⟨4, ![65536, 7, 7, 30]⟩ : Shape).Idx → EReal) : EReal :=
  rowsTotal (n := 3211264) (flat x0) (flat x1)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.RunValue.run (F := Ideal) m ρ),
    trivial,
    by
      intro m ρ m' ρ' _ hagree
      refine ⟨fun c _ => lossOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
      · -- the kernel: zero plus the two runs' accumulated losses is the loss of all rows
        exact (θ_run Cert.KernelIdeal.defs _ _).mono
          (fun _ h c => ⟨(h c).1.trans (funext fun _ => Cert.KernelIdeal.RunValue.kernel_total m c), (h c).2.1, (h c).2.2⟩)
          (Cert.KernelIdeal.RunValue.run m Cert.KernelIdeal.Cells.bodyStep_ideal ρ)
      · -- the reference: its four sums over the cells, regrouped, are the same loss of the same arguments
        refine (θ_run Cert.ReferenceIdeal.defs _ _).mono (fun _ h c => ⟨(h c).1.trans ?_, (h c).2.1, (h c).2.2⟩)
          (Cert.ReferenceIdeal.RunValue.run (F := Ideal) m' ρ')
        rw [(hagree c).1, (hagree c).2, Cert.RefCells.ref_value]
        funext _
        exact refTotal_eq _ _⟩

end Cert.Proof

end
